-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x128x128 : Shape := ⟨3, ![16, 128, 128]⟩
abbrev S21x256 : Shape := ⟨2, ![21, 256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S21x256 : S_.BroadcastsInDim S21x256 (![] : Fin 0 → Fin S21x256.rank)
  reducesTo_S21x256_S_d0_1 : S21x256.ReducesTo [0, 1] S_

variable [Facts]

def fn {F : FTy → Type} [FloatOps F] (main_arg0 : FVec F S16x256x128x128 .f32) (main_arg1 : IVec S16x128x128 32) (main_arg2 : FVec F S21x256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S21x256 .f32 := Host.absf main_arg2
  let main_cst_0 : FVec F S_ .f32 := constant S_ .f32 0x7F800000#32
  let main_v5 : FVec F S21x256 .f32 := broadcastInDim S21x256 ![] bcast_S_S21x256 main_cst_0
  let main_v6 : IVec S21x256 1 := cmpf .olt main_v4 main_v5
  let main_c_1 : IVec S_ 1 := constantI S_ 1 1#1
  let main_v7 : IVec S_ 1 := (fun x v => Host.reduce IntOp.andi x v reducesTo_S21x256_S_d0_1 h_S_) main_v6 main_c_1
  let main_v8 : IVec S_ 1 := andi main_v3 main_v7
  main_v8
-- ==== Kernel.lean ====
abbrev S16x256x128x128 : Shape := ⟨4, ![16, 256, 128, 128]⟩
abbrev S16x128x128 : Shape := ⟨3, ![16, 128, 128]⟩
abbrev S21x256 : Shape := ⟨2, ![21, 256]⟩
abbrev S16x256x16384 : Shape := ⟨3, ![16, 256, 16384]⟩
abbrev S262144 : Shape := ⟨1, ![262144]⟩
abbrev S256x21 : Shape := ⟨2, ![256, 21]⟩
abbrev S2x256x21 : Shape := ⟨3, ![2, 256, 21]⟩
abbrev S2x1x21 : Shape := ⟨3, ![2, 1, 21]⟩
abbrev S1x256x8192 : Shape := ⟨3, ![1, 256, 8192]⟩
abbrev S8192 : Shape := ⟨1, ![8192]⟩
abbrev S1x256x21 : Shape := ⟨3, ![1, 256, 21]⟩
abbrev S1x1x21 : Shape := ⟨3, ![1, 1, 21]⟩
abbrev S1x21 : Shape := ⟨2, ![1, 21]⟩
abbrev S256x8192 : Shape := ⟨2, ![256, 8192]⟩
abbrev S21x8192 : Shape := ⟨2, ![21, 8192]⟩
abbrev S1x8192 : Shape := ⟨2, ![1, 8192]⟩
abbrev S21 : Shape := ⟨1, ![21]⟩
abbrev S_ : Shape := ⟨0, ![]⟩
abbrev S2x21 : Shape := ⟨2, ![2, 21]⟩

abbrev nBuf : Space → Nat
  | .hbm => 53
  | .vmem => 14
  | .smem => 0
  | _ => 0

abbrev bufTy : (tb : Table) → Fin (tcTables nBuf tb) → BufTy
  | .hbm, ⟨0, _⟩ => ⟨S16x256x128x128, .f32⟩
  | .hbm, ⟨1, _⟩ => ⟨S16x128x128, .i32⟩
  | .hbm, ⟨2, _⟩ => ⟨S21x256, .f32⟩
  | .hbm, ⟨3, _⟩ => ⟨S16x256x16384, .f32⟩
  | .hbm, ⟨4, _⟩ => ⟨S262144, .i32⟩
  | .hbm, ⟨5, _⟩ => ⟨S256x21, .f32⟩
  | .hbm, ⟨6, _⟩ => ⟨S2x256x21, .f32⟩
  | .hbm, ⟨7, _⟩ => ⟨S2x1x21, .f32⟩
  | .hbm, ⟨8, _⟩ => ⟨S2x1x21, .f32⟩
  | .hbm, ⟨9, _⟩ => ⟨S_, .f32⟩
  | .hbm, ⟨10, _⟩ => ⟨S256x21, .f32⟩
  | .hbm, ⟨11, _⟩ => ⟨S2x21, .f32⟩
  | .hbm, ⟨12, _⟩ => ⟨S_, .f32⟩
  | .hbm, ⟨13, _⟩ => ⟨S21, .f32⟩
  | .hbm, ⟨14, _⟩ => ⟨S2x21, .f32⟩
  | .hbm, ⟨15, _⟩ => ⟨S_, .f32⟩
  | .hbm, ⟨16, _⟩ => ⟨S21, .f32⟩
  | .hbm, ⟨17, _⟩ => ⟨S21x256, .f32⟩
  | .hbm, ⟨18, _⟩ => ⟨S_, .f32⟩
  | .hbm, ⟨19, _⟩ => ⟨S21, .f32⟩
  | .hbm, ⟨20, _⟩ => ⟨S256x21, .f32⟩
  | .hbm, ⟨21, _⟩ => ⟨S_, .f32⟩
  | .hbm, ⟨22, _⟩ => ⟨S21, .f32⟩
  | .hbm, ⟨23, _⟩ => ⟨S_, .f32⟩
  | .hbm, ⟨24, _⟩ => ⟨S21, .f32⟩
  | .hbm, ⟨25, _⟩ => ⟨S21, .f32⟩
  | .hbm, ⟨26, _⟩ => ⟨S21, .f32⟩
  | .hbm, ⟨27, _⟩ => ⟨S21, .f32⟩
  | .hbm, ⟨28, _⟩ => ⟨S21, .f32⟩
  | .hbm, ⟨29, _⟩ => ⟨S_, .f32⟩
  | .hbm, ⟨30, _⟩ => ⟨S21, .f32⟩
  | .hbm, ⟨31, _⟩ => ⟨S21, .i1⟩
  | .hbm, ⟨32, _⟩ => ⟨S_, .f32⟩
  | .hbm, ⟨33, _⟩ => ⟨S21, .f32⟩
  | .hbm, ⟨34, _⟩ => ⟨S21, .f32⟩
  | .hbm, ⟨35, _⟩ => ⟨S_, .f32⟩
  | .hbm, ⟨36, _⟩ => ⟨S21, .f32⟩
  | .hbm, ⟨37, _⟩ => ⟨S21, .f32⟩
  | .hbm, ⟨38, _⟩ => ⟨S21, .f32⟩
  | .hbm, ⟨39, _⟩ => ⟨S_, .f32⟩
  | .hbm, ⟨40, _⟩ => ⟨S_, .f32⟩
  | .hbm, ⟨41, _⟩ => ⟨S21, .f32⟩
  | .hbm, ⟨42, _⟩ => ⟨S21, .f32⟩
  | .hbm, ⟨43, _⟩ => ⟨S21, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S1x256x8192, .f32⟩
  | .local _ .vmem, ⟨1, _⟩ => ⟨S1x256x8192, .f32⟩
  | .local _ .vmem, ⟨2, _⟩ => ⟨S8192, .i32⟩
  | .local _ .vmem, ⟨3, _⟩ => ⟨S8192, .i32⟩
  | .local _ .vmem, ⟨4, _⟩ => ⟨S256x21, .f32⟩
  | .local _ .vmem, ⟨5, _⟩ => ⟨S1x256x21, .f32⟩
  | .local _ .vmem, ⟨6, _⟩ => ⟨S1x256x21, .f32⟩
  | .local _ .vmem, ⟨7, _⟩ => ⟨S1x1x21, .f32⟩
  | .local _ .vmem, ⟨8, _⟩ => ⟨S1x1x21, .f32⟩
  | .local _ .vmem, ⟨9, _⟩ => ⟨S1x1x21, .f32⟩
  | .local _ .vmem, ⟨10, _⟩ => ⟨S1x1x21, .f32⟩
  | .local _ .vmem, ⟨11, _⟩ => ⟨S256x21, .f32⟩
  | .local _ .vmem, ⟨12, _⟩ => ⟨S1x21, .f32⟩
  | .local _ .vmem, ⟨13, _⟩ => ⟨S1x21, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_call0_v0 : Ref sig .tc := ⟨.hbm, 40, rfl⟩
abbrev main_call0_v1 : Ref sig .tc := ⟨.hbm, 41, rfl⟩
abbrev main_v25 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_cst_11 : Ref sig .tc := ⟨.hbm, 48, rfl⟩
abbrev main_v29 : Ref sig .tc := ⟨.hbm, 49, rfl⟩
abbrev main_v30 : Ref sig .tc := ⟨.hbm, 50, rfl⟩
abbrev main_cst_12 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_19 : BitVec 32 := 0#32
  let v42 : BitVec 1 := Scalar.cmpi .ne v41 c0_i32_19
  v42

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, c0_i32_10.toNat, v28.toNat]

def cc0_transform_1 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x21 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x21 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S16x256x128x128_S16x256x16384 : S16x256x128x128.ShapeCasts S16x256x16384
  shapeCasts_S16x128x128_S262144 : S16x128x128.ShapeCasts S262144
  transposes_S21x256_S256x21_1_0 : S21x256.Transposes [1, 0] S256x21
  inb_S256x21_S256x21_0_0 : ∀ a, (![0, 0] : Fin 2 → Nat) a + S256x21.size a ≤ S256x21.size a
  h_S256x21 : 0 < S256x21.numel
  shapeCasts_S256x21_S256x21 : S256x21.ShapeCasts S256x21
  inb_S1x21_S1x21_0_0 : ∀ a, (![0, 0] : Fin 2 → Nat) a + S1x21.size a ≤ S1x21.size a
  h_S1x21 : 0 < S1x21.numel
  shapeCasts_S1x21_S1x21 : S1x21.ShapeCasts S1x21
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  inb_S8192_S8192_0 : ∀ a, (![0] : Fin 1 → Nat) a + S8192.size a ≤ S8192.size a
  h_S8192 : 0 < S8192.numel
  shapeCasts_S8192_S8192 : S8192.ShapeCasts S8192
  iota_S21x8192_d0_w32 : S21x8192.Iotas .tc 32 [0]
  shapeCasts_S8192_S1x8192 : S8192.ShapeCasts S1x8192
  broadcasts_S1x8192_S21x8192 : S1x8192.Broadcasts S21x8192
  natLt_1_32 : 1 < 32
  bitsLt_bf16_f32 : FTy.bits .bf16 < FTy.bits .f32
  reduces_S256x8192_S8192 : S256x8192.Reduces [0] S8192
  reduces_S21x8192_S21 : S21x8192.Reduces [1] S21
  shapeCasts_S21_S1x21 : S21.ShapeCasts S1x21
  inb_S1x256x21_S1x256x21_0_0_0 : ∀ a, (![0, 0, 0] : Fin 3 → Nat) a + S1x256x21.size a ≤ S1x256x21.size a
  h_S1x256x21 : 0 < S1x256x21.numel
  shapeCasts_S1x256x21_S256x21 : S1x256x21.ShapeCasts S256x21
  shapeCasts_S256x21_S1x256x21 : S256x21.ShapeCasts S1x256x21
  inb_S1x1x21_S1x1x21_0_0_0 : ∀ a, (![0, 0, 0] : Fin 3 → Nat) a + S1x1x21.size a ≤ S1x1x21.size a
  h_S1x1x21 : 0 < S1x1x21.numel
  shapeCasts_S1x1x21_S1x21 : S1x1x21.ShapeCasts S1x21
  shapeCasts_S1x21_S1x1x21 : S1x21.ShapeCasts S1x1x21
  reducesTo_S2x256x21_S256x21_d0 : S2x256x21.ReducesTo [0] S256x21
  h_S_ : 0 < S_.numel
  shapeCasts_S2x1x21_S2x21 : S2x1x21.ShapeCasts S2x21
  reducesTo_S2x21_S21_d0 : S2x21.ReducesTo [0] S21
  reducesTo_S21x256_S21_d1 : S21x256.ReducesTo [1] S21
  reducesTo_S256x21_S21_d0 : S256x21.ReducesTo [0] S21
  bcast_S_S21 : S_.BroadcastsInDim S21 (![] : Fin 0 → Fin S21.rank)
  reducesTo_S21_S_d0 : S21.ReducesTo [0] S_
  dot_S256x8192_S21x8192_S256x21_1_1_0_0_n_n_wf : DotDims.WF S256x8192 S21x8192 S256x21 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S16x256x16384.size a
  hwx0_0 : ∀ i : grid0.Coords, EltTy.bits .f32 = 32 ∨ (Rect.block (s := S16x256x16384) S1x256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S262144.size a
  hwx0_1 : ∀ i : grid0.Coords, EltTy.bits .i32 = 32 ∨ (Rect.block (s := S262144) S8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x21.size a ≤ S256x21.size a
  hwx0_2 : ∀ i : grid0.Coords, EltTy.bits .f32 = 32 ∨ (Rect.block (s := S256x21) S256x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x21.size a ≤ S2x256x21.size a
  hwx0_3 : ∀ i : grid0.Coords, EltTy.bits .f32 = 32 ∨ (Rect.block (s := S2x256x21) S1x256x21.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x21.size a ≤ S2x1x21.size a
  hwx0_4 : ∀ i : grid0.Coords, EltTy.bits .f32 = 32 ∨ (Rect.block (s := S2x1x21) S1x1x21.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x21.size a ≤ S2x1x21.size a
  hwx0_5 : ∀ i : grid0.Coords, EltTy.bits .f32 = 32 ∨ (Rect.block (s := S2x1x21) S1x1x21.size (cc0_transform_5 i) (hinb0_5 i)).WholeWords (EltTy.packing .f32)

variable [Facts₀]

def dot_S256x8192_S21x8192_S256x21_1_1_0_0_n_n : DotDims S256x8192 S21x8192 S256x21 where
  lhsContracting := [1]
  rhsContracting := [1]
  lhsNonContracting := [0]
  rhsNonContracting := [0]
  lhsBatch := []
  rhsBatch := []
  wf := dot_S256x8192_S21x8192_S256x21_1_1_0_0_n_n_wf

abbrev win0_0 : Pipeline.Window sig grid0 :=
  Pipeline.Window.ofSpec (Memref.whole main_v0) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x21.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x256x21.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1x21.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x1x21.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x256x128x128 : Shape := ⟨4, ![16, 256, 128, 128]⟩
abbrev S16x128x128 : Shape := ⟨3, ![16, 128, 128]⟩
abbrev S21x256 : Shape := ⟨2, ![21, 256]⟩
abbrev S16x128x128x256 : Shape := ⟨4, ![16, 128, 128, 256]⟩
abbrev S262144x256 : Shape := ⟨2, ![262144, 256]⟩
abbrev S262144 : Shape := ⟨1, ![262144]⟩
abbrev S_ : Shape := ⟨0, ![]⟩
abbrev S262144x1 : Shape := ⟨2, ![262144, 1]⟩
abbrev S22 : Shape := ⟨1, ![22]⟩
abbrev S21 : Shape := ⟨1, ![21]⟩

abbrev nBuf : Space → Nat
  | .hbm => 70
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x128x128, .i32⟩
  | .hbm, ⟨2, _⟩ => ⟨S21x256, .f32⟩
  | .hbm, ⟨3, _⟩ => ⟨S16x128x128x256, .f32⟩
  | .hbm, ⟨4, _⟩ => ⟨S262144x256, .f32⟩
  | .hbm, ⟨5, _⟩ => ⟨S262144, .i32⟩
  | .hbm, ⟨6, _⟩ => ⟨S_, .i32⟩
  | .hbm, ⟨7, _⟩ => ⟨S262144, .i32⟩
  | .hbm, ⟨8, _⟩ => ⟨S262144, .i1⟩
  | .hbm, ⟨9, _⟩ => ⟨S_, .i32⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x256, .f32⟩
  | .hbm, ⟨30, _⟩ => ⟨S262144x256, .f32⟩
  | .hbm, ⟨31, _⟩ => ⟨S262144x256, .f32⟩
  | .hbm, ⟨32, _⟩ => ⟨S_, .f32⟩
  | .hbm, ⟨33, _⟩ => ⟨S262144, .f32⟩
  | .hbm, ⟨34, _⟩ => ⟨S_, .f32⟩
  | .hbm, ⟨35, _⟩ => ⟨S22, .f32⟩
  | .hbm, ⟨36, _⟩ => ⟨S262144x1, .i32⟩
  | .hbm, ⟨37, _⟩ => ⟨S22, .f32⟩
  | .hbm, ⟨38, _⟩ => ⟨S21, .f32⟩
  | .hbm, ⟨39, _⟩ => ⟨S_, .f32⟩
  | .hbm, ⟨40, _⟩ => ⟨S262144, .f32⟩
  | .hbm, ⟨41, _⟩ => ⟨S_, .f32⟩
  | .hbm, ⟨42, _⟩ => ⟨S22, .f32⟩
  | .hbm, ⟨43, _⟩ => ⟨S262144x1, .i32⟩
  | .hbm, ⟨44, _⟩ => ⟨S22, .f32⟩
  | .hbm, ⟨45, _⟩ => ⟨S21, .f32⟩
  | .hbm, ⟨46, _⟩ => ⟨S_, .f32⟩
  | .hbm, ⟨47, _⟩ => ⟨S21, .f32⟩
  | .hbm, ⟨48, _⟩ => ⟨S21, .i1⟩
  | .hbm, ⟨49, _⟩ => ⟨S_, .f32⟩
  | .hbm, ⟨50, _⟩ => ⟨S21, .f32⟩
  | .hbm, ⟨51, _⟩ => ⟨S21, .f32⟩
  | .hbm, ⟨52, _⟩ => ⟨S_, .f32⟩
  | .hbm, ⟨53, _⟩ => ⟨S21, .f32⟩
  | .hbm, ⟨54, _⟩ => ⟨S21, .f32⟩
  | .hbm, ⟨55, _⟩ => ⟨S21, .f32⟩
  | .hbm, ⟨56, _⟩ => ⟨S_, .f32⟩
  | .hbm, ⟨57, _⟩ => ⟨S_, .f32⟩
  | .hbm, ⟨58, _⟩ => ⟨S21, .f32⟩
  | .hbm, ⟨59, _⟩ => ⟨S21, .f32⟩
  | .hbm, ⟨60, _⟩ => ⟨S21, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_c_1 : Ref sig .tc := ⟨.hbm, 13, rfl⟩
abbrev main_c_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_c_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_cst_7 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_8 : Ref sig .tc := ⟨.hbm, 46, rfl⟩
abbrev main_v26 : Ref sig .tc := ⟨.hbm, 47, rfl⟩
abbrev main_v27 : Ref sig .tc := ⟨.hbm, 48, rfl⟩
abbrev main_cst_9 : Ref sig .tc := ⟨.hbm, 49, rfl⟩
abbrev main_v28 : Ref sig .tc := ⟨.hbm, 50, rfl⟩
abbrev main_v29 : Ref sig .tc := ⟨.hbm, 51, rfl⟩
abbrev main_cst_10 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_11 : Ref sig .tc := ⟨.hbm, 56, rfl⟩
abbrev main_call2_v0 : Ref sig .tc := ⟨.hbm, 57, rfl⟩
abbrev main_call2_v1 : Ref sig .tc := ⟨.hbm, 58, rfl⟩
abbrev main_v33 : Ref sig .tc := ⟨.hbm, 59, rfl⟩
abbrev main_v34 : Ref sig .tc := ⟨.hbm, 60, rfl⟩
abbrev main_cst_12 : Ref sig .tc := ⟨.hbm, 61, rfl⟩
abbrev main_v35 : Ref sig .tc := ⟨.hbm, 62, rfl⟩
abbrev main_cst_13 : Ref sig .tc := ⟨.hbm, 63, rfl⟩
abbrev main_v36 : Ref sig .tc := ⟨.hbm, 64, rfl⟩
abbrev main_cst_14 : Ref sig .tc := ⟨.hbm, 65, rfl⟩
abbrev main_v37 : Ref sig .tc := ⟨.hbm, 66, rfl⟩
abbrev main_v38 : Ref sig .tc := ⟨.hbm, 67, rfl⟩
abbrev main_cst_15 : Ref sig .tc := ⟨.hbm, 68, rfl⟩
abbrev main_v39 : Ref sig .tc := ⟨.hbm, 69, rfl⟩

abbrev nD : Nat := 1
abbrev τ : Topo := Topo.v7x

variable {F : FTy → Type} [FloatOps F]

class Facts₀ : Prop where
  transposes_S16x256x128x128_S16x128x128x256_0_2_3_1 : S16x256x128x128.Transposes [0, 2, 3, 1] S16x128x128x256
  shapeCasts_S16x128x128x256_S262144x256 : S16x128x128x256.ShapeCasts S262144x256
  shapeCasts_S16x128x128_S262144 : S16x128x128.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  reducesTo_S262144x256_S262144_d1 : S262144x256.ReducesTo [1] S262144
  h_S_ : 0 < S_.numel
  bcast_S_S22 : S_.BroadcastsInDim S22 (![] : Fin 0 → Fin S22.rank)
  slices_S22_S21_0 : S22.Slices ![0] S21
  bcast_S_S21 : S_.BroadcastsInDim S21 (![] : Fin 0 → Fin S21.rank)
  reducesTo_S21_S_d0 : S21.ReducesTo [0] S_
  gather_S21x256_S262144x1_S262144x256_1_0_n_n_0_1_1256_wf : GatherDims.WF S21x256 S262144x1 S262144x256 [1] [0] [] [0] [] 1 ![1, 256]
  scatter_S22_S262144x1_S262144_n_0_0_1_wf : ScatterDims.WF S22 S262144x1 S262144 [] [0] [0] 1

variable [Facts₀]

def gather_S21x256_S262144x1_S262144x256_1_0_n_n_0_1_1256 : GatherDims S21x256 S262144x1 S262144x256 where
  offsetDims := [1]
  collapsedSliceDims := [0]
  operandBatchingDims := []
  startIndicesBatchingDims := []
  startIndexMap := [0]
  indexVectorDim := 1
  sliceSizes := ![1, 256]
  wf := gather_S21x256_S262144x1_S262144x256_1_0_n_n_0_1_1256_wf
def scatter_S22_S262144x1_S262144_n_0_0_1 : ScatterDims S22 S262144x1 S262144 where
  updateWindowDims := []
  insertedWindowDims := [0]
  scatterDimsToOperandDims := [0]
  indexVectorDim := 1
  wf := scatter_S22_S262144x1_S262144_n_0_0_1_wf

class Facts : Prop extends Facts₀ where

variable [Facts]
-- ==== Proof.MomentDefs.lean ====
/-
  The clustering loss as mathematics, free of either program.

  A batch of 16 images of 128 x 128 pixels with 256 channels is 262144 pixels; pixel `n` is image `n / 16384`,
  row `n / 128 % 128`, column `n % 128`.  Each pixel carries a label word; class `k` (of 21) collects the pixels whose
  label word is `k`, and every other word (the ignore word 255 among them) belongs to no class.

  For a class `k` with prototype row `p k`, the sum over its pixels of the squared distance to the prototype,
      sum over n in class k of  sum over c of (x n c - p k c)^2,
  expands, because every entry is a real number, into three moments of the class:
      (sum of |x n|^2)  -  2 * sum over c of p k c * (sum of x n c)  +  (number of pixels) * |p k|^2.
  One program accumulates the three moments tile by tile (32 tiles of 8192 pixels, 16 per core, two cores) and
  combines them afterwards; the other forms the squared distances pixel by pixel and adds them per class.  This file
  states both forms over the same index conventions and proves them equal; the loss is then one function
  (`lossOf`) of the per-class sums and counts.
-/
import Idealize.ShloMosaic.PureOps.Ideal
import Idealize.ShloMosaic.PureOps.Ideal.Laws
import Idealize.ShloMosaic.PureOps.Contract
import Idealize.ShloMosaic.Lib.ValueIdx

noncomputable section

namespace Cert.Moments

open Idealize.ShloMosaic Idealize.ShloMosaic.ValueIdx

abbrev SX : Shape := ⟨4, ![16, 256, 128, 128]⟩
abbrev SL : Shape := ⟨3, ![16, 128, 128]⟩
abbrev SP : Shape := ⟨2, ![21, 256]⟩
abbrev SK : Shape := ⟨1, ![21]⟩
abbrev S0 : Shape := ⟨0, ![]⟩

/-- The weight of class `k` at a label word: one when the word is `k`, zero otherwise. -/
def hot (k : Fin 21) (l : BitVec 32) : EReal := if l = BitVec.ofNat 32 k.val then 1 else 0

/-- Pixel `n` as an index of the label array: image, row, column. -/
def pixL (n : Fin 262144) : SL.Idx :=
  ix3 (⟨n.val / 16384, by omega⟩ : Fin 16) (⟨n.val / 128 % 128, by omega⟩ : Fin 128) (⟨n.val % 128, by omega⟩ : Fin 128)

/-- Channel `ch` of pixel `n` as an index of the feature array: image, channel, row, column. -/
def pixX (n : Fin 262144) (ch : Fin 256) : SX.Idx :=
  ix4 (⟨n.val / 16384, by omega⟩ : Fin 16) ch (⟨n.val / 128 % 128, by omega⟩ : Fin 128) (⟨n.val % 128, by omega⟩ : Fin 128)

/-- The pixel in lane `j` of tile `t`: tiles are consecutive runs of 8192 pixels (a tile number past 31 wraps; only
    tiles 0 to 31 are ever asked for). -/
def lane (t : ℕ) (j : Fin 8192) : Fin 262144 := ⟨t % 32 * 8192 + j.val, by omega⟩

/-- The words the programs write for 0, 1, 2 and 256. -/
abbrev zeroW : EReal := Ideal.ofBits .f32 0x00000000#32
abbrev oneW : EReal := Ideal.ofBits .f32 0x3F800000#32
abbrev twoW : EReal := Ideal.ofBits .f32 0x40000000#32

section
variable (X : SX.Idx → EReal) (L : SL.Idx → BitVec 32) (Pm : SP.Idx → EReal)

/-! ## The three moments of a class, tile by tile -/

/-- Tile `t`'s part of the sum of channel `ch` over class `k`. -/
def tileMom (t : ℕ) (ch : Fin 256) (k : Fin 21) : EReal :=
  ∑ j : Fin 8192, X (pixX (lane t j) ch) * hot k (L (pixL (lane t j)))

/-- Tile `t`'s part of the number of pixels of class `k`. -/
def tileCnt (t : ℕ) (k : Fin 21) : EReal := ∑ j : Fin 8192, hot k (L (pixL (lane t j)))

/-- Tile `t`'s part of the sum of squared norms over class `k`. -/
def tileSsq (t : ℕ) (k : Fin 21) : EReal :=
  ∑ j : Fin 8192, hot k (L (pixL (lane t j))) * ∑ ch : Fin 256, X (pixX (lane t j) ch) * X (pixX (lane t j) ch)

/-- Core `p` owns tiles `16 p` to `16 p + 15`; after its first `r` tiles it has accumulated these. -/
def accMom (p r : ℕ) (ch : Fin 256) (k : Fin 21) : EReal := ∑ s ∈ Finset.range r, tileMom X L (16 * p + s) ch k
def accCnt (p r : ℕ) (k : Fin 21) : EReal := ∑ s ∈ Finset.range r, tileCnt L (16 * p + s) k
def accSsq (p r : ℕ) (k : Fin 21) : EReal := ∑ s ∈ Finset.range r, tileSsq X L (16 * p + s) k

/-! ## The moment form: what is combined after the two cores are added -/

def momK (ch : Fin 256) (k : Fin 21) : EReal := zeroW + ∑ p : Fin 2, accMom X L p.val 16 ch k
def cntK (k : Fin 21) : EReal := zeroW + ∑ p : Fin 2, accCnt L p.val 16 k
def ssqK (k : Fin 21) : EReal := zeroW + ∑ p : Fin 2, accSsq X L p.val 16 k
def nrmK (k : Fin 21) : EReal := zeroW + ∑ ch : Fin 256, Pm (ix2 k ch) * Pm (ix2 k ch)
def crossK (k : Fin 21) : EReal := zeroW + ∑ ch : Fin 256, Pm (ix2 k ch) * momK X L ch k
/-- Sum of squared norms, minus twice the inner product with the prototype, plus count times the prototype's squared norm. -/
def sseK (k : Fin 21) : EReal := (ssqK X L k - twoW * crossK X L Pm k) + cntK L k * nrmK Pm k

/-! ## The distance form: squared distances pixel by pixel, added per class -/

/-- The squared distance of pixel `n` to the prototype row `row` picks for its label word. -/
def sqR (row : BitVec 32 → Fin 21) (n : Fin 262144) : EReal :=
  zeroW + ∑ ch : Fin 256, (X (pixX n ch) - Pm (ix2 (row (L (pixL n))) ch)) * (X (pixX n ch) - Pm (ix2 (row (L (pixL n))) ch))

def sseR (row : BitVec 32 → Fin 21) (k : Fin 21) : EReal :=
  zeroW + ∑ n : Fin 262144, if L (pixL n) = BitVec.ofNat 32 k.val then sqR X L Pm row n else 0
def cntR (k : Fin 21) : EReal :=
  zeroW + ∑ n : Fin 262144, if L (pixL n) = BitVec.ofNat 32 k.val then oneW else 0

end

/-! ## The loss from the per-class sums and counts -/

/-- Over the classes that occur (count above zero) the mean of sum / (max count 1 * 256), zero for the others;
    divided by the number of classes that occur (at least 1). -/
def lossOf (sse cnt : FVec Ideal SK .f32) : FVec Ideal S0 .f32 :=
  let present : IVec SK 1 := cmpf .ogt cnt (broadcastInDim SK ![] (by decide) (constant (F := Ideal) S0 .f32 0x00000000#32))
  let denom : FVec Ideal SK .f32 :=
    mulf (maximumf cnt (broadcastInDim SK ![] (by decide) (constant (F := Ideal) S0 .f32 0x3F800000#32)))
      (broadcastInDim SK ![] (by decide) (constant (F := Ideal) S0 .f32 0x43800000#32))
  let perClass : FVec Ideal SK .f32 :=
    select present (Host.divf sse denom) (broadcastInDim SK ![] (by decide) (id (constant (F := Ideal) S0 .f32 0x00000000#32)))
  let nPresent : FVec Ideal S0 .f32 :=
    maximumf (Host.reduceAdd (axes := [0]) (t := S0) (uitofp (F := Ideal) .f32 present) (constant (F := Ideal) S0 .f32 0x00000000#32) (by decide) (by decide))
      (constant (F := Ideal) S0 .f32 0x3F800000#32)
  mulf (constant (F := Ideal) S0 .f32 0x3F800000#32)
    (Host.divf (Host.reduceAdd (axes := [0]) (t := S0) perClass (constant (F := Ideal) S0 .f32 0x00000000#32) (by decide) (by decide)) nPresent)

end Cert.Moments

end
-- ==== Proof.Moments.lean ====
/-
  The two forms of a class's summed squared distance agree.

  The 262144 pixels are 32 tiles of 8192 lanes, 16 tiles for each of two cores.  Summing a quantity over cores, tiles
  and lanes is summing it over the pixels, so the count of a class is the same either way.  When every feature and
  prototype entry is a real number, the three moments of a class,
      (sum of |x n|^2)  -  2 * sum over c of p k c * (sum of x n c)  +  (number of pixels) * |p k|^2,
  combine to the sum over the class's pixels of sum over c of (x n c - p k c)^2, because
  (x - p)^2 = x^2 - 2 p x + p^2 entry by entry and finite sums of reals may be exchanged and distributed freely.
-/
import Idealize.ShloMosaic.PureOps.Ideal
import Idealize.ShloMosaic.PureOps.Ideal.Laws
import Idealize.ShloMosaic.Lib.ValueIdx
import proofs.«408412_j53137335386660_3_alg».proof.Proof.MomentDefs

noncomputable section

namespace Cert.Moments

open Idealize.ShloMosaic Idealize.ShloMosaic.ValueIdx

/-! ## Preliminaries: the literal words, tiles and lanes against pixels, and the identity over the reals -/

/-- The word for zero is the extended real zero. -/
theorem zeroW_eq : zeroW = 0 := Ideal.ofBits_zero_f32

/-- The word `0x3F800000` is the extended real one. -/
theorem oneW_eq : oneW = 1 := by
  rw [show (1 : EReal) = ((1 : ℝ) : EReal) by norm_cast]
  simp [Ideal.ofBits, Ideal.ieee, -EReal.coe_mul]; norm_num

/-- The word `0x40000000` is the real two. -/
theorem twoW_eq : twoW = ((2 : ℝ) : EReal) := by
  simp [Ideal.ofBits, Ideal.ieee, -EReal.coe_mul]; norm_num

/-- Tiles and lanes against pixels: tile `a`, lane `b` is pixel `8192 a + b`, and pixel `n` is lane `n % 8192` of
    tile `n / 8192`. -/
def tileEquiv : Fin 32 × Fin 8192 ≃ Fin 262144 where
  toFun x := ⟨x.1.val * 8192 + x.2.val, by omega⟩
  invFun n := (⟨n.val / 8192, by omega⟩, ⟨n.val % 8192, by omega⟩)
  left_inv := by
    rintro ⟨⟨a, ha⟩, ⟨b, hb⟩⟩
    simp only [Prod.mk.injEq, Fin.mk.injEq]
    omega
  right_inv := by
    rintro ⟨n, hn⟩
    simp only [Fin.mk.injEq]
    omega

/-- Summing over two cores, sixteen tiles each, 8192 lanes per tile, is summing over the 262144 pixels. -/
theorem sum_tiles {M : Type*} [AddCommMonoid M] (f : Fin 262144 → M) :
    ∑ p : Fin 2, ∑ s ∈ Finset.range 16, ∑ j : Fin 8192, f (lane (16 * p.val + s) j) = ∑ n : Fin 262144, f n := by
  have h32 : ∑ p : Fin 2, ∑ s ∈ Finset.range 16, ∑ j : Fin 8192, f (lane (16 * p.val + s) j)
      = ∑ t ∈ Finset.range 32, ∑ j : Fin 8192, f (lane t j) := by
    rw [Fin.sum_univ_two, show (32 : ℕ) = 16 + 16 from rfl, Finset.sum_range_add]
    simp
  rw [h32, Finset.sum_range (fun t => ∑ j : Fin 8192, f (lane t j)), ← Fintype.sum_prod_type']
  refine Fintype.sum_equiv tileEquiv _ _ ?_
  rintro ⟨⟨a, ha⟩, ⟨b, hb⟩⟩
  refine congrArg f (Fin.ext ?_)
  simp only [lane, tileEquiv, Equiv.coe_fn_mk]
  rw [Nat.mod_eq_of_lt ha]

/-- The inclusion of the reals in the extended reals commutes with finite sums. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- Over the reals, with weights `w`: the three weighted moments combine to the weighted sum of squared distances,
    since `(x - p)^2 = x^2 - 2 p x + p^2` entry by entry. -/
theorem real_id {ι κ : Type*} [Fintype ι] [Fintype κ] (w : ι → ℝ) (x : ι → κ → ℝ) (p : κ → ℝ) :
    ((∑ n, w n * ∑ ch, x n ch * x n ch) - 2 * (∑ ch, p ch * ∑ n, x n ch * w n)) + (∑ n, w n) * (∑ ch, p ch * p ch)
      = ∑ n, w n * ∑ ch, (x n ch - p ch) * (x n ch - p ch) := by
  have h1 : ∀ n, w n * ∑ ch, (x n ch - p ch) * (x n ch - p ch)
      = w n * (∑ ch, x n ch * x n ch) - 2 * (∑ ch, p ch * (x n ch * w n)) + w n * ∑ ch, p ch * p ch := by
    intro n
    rw [Finset.mul_sum, Finset.mul_sum, Finset.mul_sum, Finset.mul_sum, ← Finset.sum_sub_distrib,
      ← Finset.sum_add_distrib]
    exact Finset.sum_congr rfl (fun ch _ => by ring)
  simp_rw [h1]
  rw [Finset.sum_add_distrib, Finset.sum_sub_distrib, ← Finset.mul_sum, Finset.sum_mul]
  congr 2
  rw [Finset.sum_comm]
  congr 1
  exact Finset.sum_congr rfl (fun ch _ => by rw [Finset.mul_sum])

/-- The real weight of class `k` at pixel `n`: one when the pixel's label word is `k`, zero otherwise. -/
def wt (L : SL.Idx → BitVec 32) (k : Fin 21) (n : Fin 262144) : ℝ :=
  if L (pixL n) = BitVec.ofNat 32 k.val then 1 else 0

/-- The class weight at a pixel is that real weight. -/
theorem hot_wt (L : SL.Idx → BitVec 32) (k : Fin 21) (n : Fin 262144) :
    hot k (L (pixL n)) = ((wt L k n : ℝ) : EReal) := by
  unfold hot wt
  split_ifs <;> simp

/-! ## The two forms agree -/

/-- A class's count is the same either way: the 32 tiles of 8192 lanes are the 262144 pixels. -/
theorem cnt_eq (L : SL.Idx → BitVec 32) (k : Fin 21) : cntK L k = cntR L k := by
  unfold cntK cntR accCnt tileCnt
  rw [sum_tiles (fun n => hot k (L (pixL n)))]
  simp only [hot, oneW_eq]

/-- A class's summed squared distance is the same either way, when every feature and prototype entry is a real
    number and `row` sends the word `k` to row `k`. -/
theorem sse_eq (X : SX.Idx → EReal) (L : SL.Idx → BitVec 32) (Pm : SP.Idx → EReal) (row : BitVec 32 → Fin 21)
    (hX : ∀ i, ∃ r : ℝ, X i = (r : EReal)) (hP : ∀ i, ∃ r : ℝ, Pm i = (r : EReal))
    (hrow : ∀ k : Fin 21, row (BitVec.ofNat 32 k.val) = k) (k : Fin 21) :
    sseK X L Pm k = sseR X L Pm row k := by
  choose xr hxr using hX
  choose pr hpr using hP
  obtain rfl : X = fun i => ((xr i : ℝ) : EReal) := funext hxr
  obtain rfl : Pm = fun i => ((pr i : ℝ) : EReal) := funext hpr
  have hssq : ssqK (fun i => ((xr i : ℝ) : EReal)) L k
      = ((∑ n, wt L k n * ∑ ch, xr (pixX n ch) * xr (pixX n ch) : ℝ) : EReal) := by
    unfold ssqK accSsq tileSsq
    rw [zeroW_eq, zero_add,
      sum_tiles (fun n => hot k (L (pixL n)) * ∑ ch : Fin 256, ((xr (pixX n ch) : ℝ) : EReal) * ((xr (pixX n ch) : ℝ) : EReal)),
      coe_sum]
    refine Finset.sum_congr rfl (fun n _ => ?_)
    rw [hot_wt, EReal.coe_mul, coe_sum]
    simp only [EReal.coe_mul]
  have hmom : ∀ ch, momK (fun i => ((xr i : ℝ) : EReal)) L ch k
      = ((∑ n, xr (pixX n ch) * wt L k n : ℝ) : EReal) := by
    intro ch
    unfold momK accMom tileMom
    rw [zeroW_eq, zero_add, sum_tiles (fun n => ((xr (pixX n ch) : ℝ) : EReal) * hot k (L (pixL n))), coe_sum]
    refine Finset.sum_congr rfl (fun n _ => ?_)
    rw [hot_wt, EReal.coe_mul]
  have hcross : crossK (fun i => ((xr i : ℝ) : EReal)) L (fun i => ((pr i : ℝ) : EReal)) k
      = ((∑ ch, pr (ix2 k ch) * ∑ n, xr (pixX n ch) * wt L k n : ℝ) : EReal) := by
    unfold crossK
    rw [zeroW_eq, zero_add, coe_sum]
    refine Finset.sum_congr rfl (fun ch _ => ?_)
    rw [hmom, EReal.coe_mul]
  have hcnt : cntK L k = ((∑ n, wt L k n : ℝ) : EReal) := by
    unfold cntK accCnt tileCnt
    rw [zeroW_eq, zero_add, sum_tiles (fun n => hot k (L (pixL n))), coe_sum]
    exact Finset.sum_congr rfl (fun n _ => hot_wt L k n)
  have hnrm : nrmK (fun i => ((pr i : ℝ) : EReal)) k
      = ((∑ ch, pr (ix2 k ch) * pr (ix2 k ch) : ℝ) : EReal) := by
    unfold nrmK
    rw [zeroW_eq, zero_add, coe_sum]
    simp only [EReal.coe_mul]
  have hR : sseR (fun i => ((xr i : ℝ) : EReal)) L (fun i => ((pr i : ℝ) : EReal)) row k
      = ((∑ n, wt L k n * ∑ ch, (xr (pixX n ch) - pr (ix2 k ch)) * (xr (pixX n ch) - pr (ix2 k ch)) : ℝ) : EReal) := by
    unfold sseR sqR
    rw [zeroW_eq, zero_add, coe_sum]
    refine Finset.sum_congr rfl (fun n _ => ?_)
    by_cases hc : L (pixL n) = BitVec.ofNat 32 k.val
    · have hw : wt L k n = 1 := if_pos hc
      rw [if_pos hc, hc, hrow k, zero_add, hw, one_mul, coe_sum]
      simp only [EReal.coe_sub, EReal.coe_mul]
    · have hw : wt L k n = 0 := if_neg hc
      rw [if_neg hc, hw, zero_mul, EReal.coe_zero]
  unfold sseK
  rw [hssq, hcross, hcnt, hnrm, hR, twoW_eq, ← EReal.coe_mul, ← EReal.coe_mul, ← EReal.coe_sub, ← EReal.coe_add,
    real_id (wt L k) (fun n ch => xr (pixX n ch)) (fun ch => pr (ix2 k ch))]

end Cert.Moments

end
-- ==== Proof.FiniteInputs.lean ====
/-
  Under the precondition every feature and every prototype entry is a real number.

  The precondition says that the absolute value of every entry of the two float arguments is below plus infinity.
  An extended real whose absolute value is below plus infinity is neither infinity: it is a real.
-/
import proofs.«408412_j53137335386660_3_alg».proof.Defs
import Idealize.ShloMosaic.Lib.ReduceAll
import Idealize.ShloMosaic.Lib.ValueIdx
import Idealize.ShloMosaic.PureOps.Ideal.Laws

noncomputable section

namespace Cert.Finite

open Idealize.ShloMosaic Idealize.ShloMosaic.TcCoe Idealize.SL.Sem

/-- The word `0x7F800000` is plus infinity. -/
theorem inf_eq : Ideal.ofBits .f32 0x7F800000#32 = (⊤ : EReal) := by
  simp [Ideal.ofBits, Ideal.ieee]

/-- An extended real whose absolute value `max x (-x)` is below plus infinity is a real. -/
theorem real_of_abs_lt (x : EReal)
    (h : Ideal.cmp .olt (max x (-x)) (Ideal.ofBits .f32 0x7F800000#32) = 1#1) : ∃ r : ℝ, x = (r : EReal) := by
  rw [inf_eq] at h
  have hlt : max x (-x) < ⊤ := by
    by_contra hn
    simp [Ideal.cmp, hn] at h
  induction x using EReal.rec with
  | bot => simp at hlt
  | coe r => exact ⟨r, rfl⟩
  | top => simp at hlt

instance : Subsingleton Cert.Pre_finite_inputs.S_.Idx := ⟨fun a b => funext fun d => d.elim0⟩

theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S16x256x128x128.Idx → EReal) i = (r : EReal))
    ∧ (∀ i, ∃ r : ℝ, (m ((c.tc : Thread Cert.KernelIdeal.nD Cert.KernelIdeal.τ).loc Cert.KernelIdeal.main_arg2) : Cert.KernelIdeal.S21x256.Idx → EReal) i = (r : EReal)) := by
  have h0 := congrFun (h c) ValueIdx.ix0
  dsimp only [Cert.Pre_finite_inputs.fn] at h0
  obtain ⟨ha, hb⟩ := IntOp.andi_eq_one.1 h0
  refine ⟨fun i => ?_, fun i => ?_⟩
  · exact real_of_abs_lt _ (Host.reduce_andi_all _ _ _ _ _ ha i)
  · exact real_of_abs_lt _ (Host.reduce_andi_all _ _ _ _ _ hb i)

end Cert.Finite

end
-- ==== Proof.TileBlocks.lean ====
/-
  Which pixels a tile holds.

  Grid point `t` (of 32) stages block `t` of the label words, which are lanes `8192 t` to `8192 t + 8191` of the
  flattened label array, and the matching block of the features: image `t / 2`, all 256 channels, pixels
  `8192 (t % 2)` to `8192 (t % 2) + 8191` of that image's 16384.  Both arrays are row-major re-layouts of the
  arguments, so lane `j` of tile `t` is pixel `8192 t + j` of the batch in either.
-/
import proofs.«408412_j53137335386660_3_alg».proof.Proof.Gen.KernelIdeal.Frame.Runs
import proofs.«408412_j53137335386660_3_alg».proof.Proof.MomentDefs
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Tile

open Idealize.ShloMosaic Idealize.ShloMosaic.TcCoe Idealize.ShloMosaic.ValueIdx Idealize.SL.Sem
open Cert.KernelIdeal Cert.KernelIdeal.Gen Cert.Moments

variable {F : FTy → Type} [FloatOps F]
variable (m : (ℓ : Loc nD τ sig) → Buf (Elt F) ℓ)

/-- Tile `t`'s features and label words, by their literal types. -/
abbrev xblk (c : Dev nD) (t : Fin cfg0.N) : Vec F S1x256x8192 .f32 := iblk m c 0 t
abbrev lblk (c : Dev nD) (t : Fin cfg0.N) : Vec F S8192 .i32 := iblk m c 1 t

/-- The feature and label arguments on core `c`, by their literal types. -/
abbrev xarg (c : Dev nD) : Vec F S16x256x128x128 .f32 := m ((c : Thread nD τ).loc main_arg0)
abbrev larg (c : Dev nD) : Vec F S16x128x128 .i32 := m ((c : Thread nD τ).loc main_arg1)
abbrev parg (c : Dev nD) : Vec F S21x256 .f32 := m ((c : Thread nD τ).loc main_arg2)

/-- Where the two index maps put tile `t`: features at block (t / 2, 0, t % 2), label words at block t. -/
theorem idx_facts : ∀ t : Fin cfg0.N, win0_0.index t (0 : Fin 3) = t.val / 2 ∧ win0_0.index t (1 : Fin 3) = 0
    ∧ win0_0.index t (2 : Fin 3) = t.val % 2 ∧ win0_1.index t (0 : Fin 1) = t.val :=
  (by decide +kernel : ∀ t : Fin grid0.N, _)

/-- The staged feature array is the feature argument with each image's 128 x 128 pixels laid out in one row of 16384. -/
theorem V_v0 (c : Dev nD) : (V m c main_v0 : S16x256x16384.Idx → Elt F .f32)
    = shapeCast S16x256x16384 (xarg m c) shapeCasts_S16x256x128x128_S16x256x16384 := by
  show StableHlo.after hostOps0 (fun b => m (c, b)) (Proc.devRef .tc main_v0) = _
  after_results
  rfl

/-- The staged label array is the label argument laid out in one row of 262144. -/
theorem V_v1 (c : Dev nD) : (V m c main_v1 : S262144.Idx → Elt F .i32)
    = shapeCast S262144 (larg m c) shapeCasts_S16x128x128_S262144 := by
  show StableHlo.after hostOps0 (fun b => m (c, b)) (Proc.devRef .tc main_v1) = _
  after_results
  rfl

/-- The flattened features at (image of pixel `n`, channel, position of `n` within its image) are the features of
    pixel `n`: both sit at row-major position ((n / 16384) 256 + ch) 16384 + n % 16384. -/
theorem reshapeX {α : Type} (x : S16x256x128x128.Idx → α) (k : S16x256x16384.Idx) (n : Fin 262144) (ch : Fin 256)
    (h0 : (k 0).val = n.val / 16384) (h1 : (k 1).val = ch.val) (h2 : (k 2).val = n.val % 16384) :
    shapeCast S16x256x16384 x shapeCasts_S16x256x128x128_S16x256x16384 k = x (pixX n ch) := by
  refine shapeCast_apply _ _ k (pixX n ch) ?_
  rw [Shape.rowMajor_val_four, Shape.rowMajor_val_three]
  show ((n.val / 16384 * 256 + ch.val) * 128 + n.val / 128 % 128) * 128 + n.val % 128
    = ((k 0).val * 256 + (k 1).val) * 16384 + (k 2).val
  rw [h0, h1, h2]
  omega

/-- The flattened label words at `n` are the label word of pixel `n`: both sit at row-major position `n`. -/
theorem reshapeL {α : Type} (x : S16x128x128.Idx → α) (k : S262144.Idx) (n : Fin 262144) (h0 : (k 0).val = n.val) :
    shapeCast S262144 x shapeCasts_S16x128x128_S262144 k = x (pixL n) := by
  refine shapeCast_apply _ _ k (pixL n) ?_
  rw [Shape.rowMajor_val_three, Shape.rowMajor_val_one]
  show (n.val / 16384 * 128 + n.val / 128 % 128) * 128 + n.val % 128 = (k 0).val
  rw [h0]
  omega

/-- Channel `ch`, lane `j` of tile `t` is channel `ch` of pixel `8192 t + j`. -/
theorem xblk_apply (c : Dev nD) (t : Fin cfg0.N) (ch : Fin 256) (j : Fin 8192) :
    xblk m c t (ix3 (0 : Fin 1) ch j) = xarg m c (pixX (lane t.val j) ch) := by
  obtain ⟨e0, e1, e2, -⟩ := idx_facts t
  have hN : t.val < 32 := lt_of_lt_of_eq t.isLt (show cfg0.N = 32 from N_0)
  unfold xblk iblk
  rw [View.read_apply]
  show V m c main_v0 _ = _
  rw [V_v0]
  -- a block coordinate is (block index) x (block extent) + (coordinate inside the block), axis by axis
  refine reshapeX _ _ (lane t.val j) ch ?_ ?_ ?_
  · show win0_0.index t (0 : Fin 3) * 1 + 1 * (0 : Fin 1).val = (t.val % 32 * 8192 + j.val) / 16384
    rw [e0]; have := j.isLt; simp only [Fin.val_zero]; omega
  · show win0_0.index t (1 : Fin 3) * 256 + 1 * ch.val = ch.val
    rw [e1]; omega
  · show win0_0.index t (2 : Fin 3) * 8192 + 1 * j.val = (t.val % 32 * 8192 + j.val) % 16384
    rw [e2]; have := j.isLt; omega

/-- Lane `j` of tile `t`'s label words is the label word of pixel `8192 t + j`. -/
theorem lblk_apply (c : Dev nD) (t : Fin cfg0.N) (j : Fin 8192) :
    lblk m c t (ix1 j) = larg m c (pixL (lane t.val j)) := by
  obtain ⟨-, -, -, e3⟩ := idx_facts t
  have hN : t.val < 32 := lt_of_lt_of_eq t.isLt (show cfg0.N = 32 from N_0)
  unfold lblk iblk
  rw [View.read_apply]
  show V m c main_v1 _ = _
  rw [V_v1]
  refine reshapeL _ _ (lane t.val j) ?_
  show win0_1.index t (0 : Fin 1) * 8192 + 1 * j.val = t.val % 32 * 8192 + j.val
  rw [e3]; omega

end Cert.KernelIdeal.Tile

end
-- ==== Proof.TileSums.lean ====
/-
  What one tile adds to each accumulator, read entry by entry over the extended reals.

  A tile is 8192 pixels (lanes) by 256 channels, with one label word per lane.  Row `k` of the class mask holds, in
  lane `j`, one when the lane's label word is `k` and zero otherwise (`hot`).  The body adds to its three accumulators:
  the product of the tile with the transposed mask (entry (ch, k): the sum over lanes of feature times mask), the
  mask's row sums, and the mask-weighted row sums of the squared norms of the pixels.  A change of float format is the
  identity here, and a product into a zero accumulator is the plain sum of products.
-/
import proofs.«408412_j53137335386660_3_alg».proof.Proof.Gen.KernelIdeal.Skeleton
import proofs.«408412_j53137335386660_3_alg».proof.Proof.MomentDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen Cert.Moments

/-- The conversion of a widened equality bit: one when the two words are equal, zero otherwise. -/
theorem eqBit_toReal (a b : BitVec 32) :
    FloatOps.sitofp (F := Ideal) .f32 ((IntOp.cmpi .eq a b).setWidth 32) = if a = b then (1 : EReal) else 0 := by
  by_cases h : a = b
  · subst h
    rw [if_pos rfl]
    have e : IntOp.cmpi .eq a a = 1#1 := by simp [IntOp.cmpi]
    rw [e]
    show ((((1#1 : BitVec 1).setWidth 32).toInt : ℝ) : EReal) = 1
    have e2 : ((1#1 : BitVec 1).setWidth 32).toInt = 1 := by decide
    rw [e2]; simp
  · rw [if_neg h]
    have e : IntOp.cmpi .eq a b = 0#1 := by
      show BitVec.ofBool (a == b) = 0#1
      rw [beq_eq_false_iff_ne.mpr h]; rfl
    rw [e]
    show ((((0#1 : BitVec 1).setWidth 32).toInt : ℝ) : EReal) = 0
    have e2 : ((0#1 : BitVec 1).setWidth 32).toInt = 0 := by decide
    rw [e2]; simp

/-- The class mask of a tile's label words: row `k`, lane `j` is the weight of class `k` at lane `j`'s word. -/
theorem mask_apply (l : Vec Ideal S8192 .i32) (k : Fin 21) (j : Fin 8192) :
    k0_pay9 (F := Ideal) l (ix2 k j) = hot k (l (ix1 j)) := by
  unfold k0_pay9
  show FloatOps.sitofp (F := Ideal) .f32 ((IntOp.cmpi .eq
      (broadcastTo S21x8192 (shapeCast S1x8192 (shapeCast S8192 l shapeCasts_S8192_S8192) shapeCasts_S8192_S1x8192)
        broadcasts_S1x8192_S21x8192 (ix2 k j))
      (iota .tc S21x8192 32 [0] iota_S21x8192_d0_w32 (ix2 k j))).setWidth 32) = _
  rw [broadcastTo_1b_ab_apply, shapeCast_a_1a_apply, shapeCast_self, iota_single_apply, eqBit_toReal]
  rfl

/-! The source index of a one-axis sum, by coordinates. -/

/-- Summing a 21 x 8192 array along its lanes: row `k` with lane `j` put back is entry (k, j). -/
theorem lift_lane (h : S21x8192.Reduces [1] S21) (k : Fin 21) (j : Fin 8192) : h.lift (ix1 k) j = ix2 k j := by
  funext c; refine Fin.ext ?_
  match c with
  | ⟨0, _⟩ => rfl
  | ⟨1, _⟩ => rfl

/-- Summing a 256 x 8192 array along its channels: lane `j` with channel `ch` put back is entry (ch, j). -/
theorem lift_chan (h : S256x8192.Reduces [0] S8192) (j : Fin 8192) (ch : Fin 256) : h.lift (ix1 j) ch = ix2 ch j := by
  funext c; refine Fin.ext ?_
  match c with
  | ⟨0, _⟩ => rfl
  | ⟨1, _⟩ => rfl

/-- A lane sum of a 21 x 8192 array at row `k`. -/
theorem laneSum_apply (v : FVec Ideal S21x8192 .f32) (k : Fin 21) :
    multiReduction (F := Ideal) .add [1] S21 v 0x00000000#32 reduces_S21x8192_S21 (.inl rfl) rfl (ix1 k)
      = ∑ j : Fin 8192, v (ix2 k j) := by
  refine (Ideal.multiReduction_add_single v _ reduces_S21x8192_S21 (.inl rfl) rfl (ix1 k)).trans ?_
  exact Finset.sum_congr rfl fun j _ => congrArg v (lift_lane _ k j)

/-- A channel sum of a 256 x 8192 array at lane `j`. -/
theorem chanSum_apply (v : FVec Ideal S256x8192 .f32) (j : Fin 8192) :
    multiReduction (F := Ideal) .add [0] S8192 v 0x00000000#32 reduces_S256x8192_S8192 (.inl rfl) rfl (ix1 j)
      = ∑ ch : Fin 256, v (ix2 ch j) := by
  refine (Ideal.multiReduction_add_single v _ reduces_S256x8192_S8192 (.inl rfl) rfl (ix1 j)).trans ?_
  exact Finset.sum_congr rfl fun ch _ => congrArg v (lift_chan _ j ch)

/-- The tile without its leading unit axis. -/
theorem tile_apply (x : Vec Ideal S1x256x8192 .f32) (ch : Fin 256) (j : Fin 8192) :
    k0_pay8 (F := Ideal) x (ix2 ch j) = x (ix3 (0 : Fin 1) ch j) := by
  unfold k0_pay8
  exact shapeCast_1ab_ab_apply x _ ch j

/-- The count accumulator after a tile: what it held plus the number of lanes of class `k`. -/
theorem cnt_apply (l : Vec Ideal S8192 .i32) (acc : Vec Ideal S1x21 .f32) (k : Fin 21) :
    k0_pay12 (F := Ideal) l acc (ix2 (0 : Fin 1) k)
      = acc (ix2 (0 : Fin 1) k) + ∑ j : Fin 8192, hot k (l (ix1 j)) := by
  unfold k0_pay12
  show shapeCast S1x21 (addf acc (shapeCast S1x21
      (multiReduction (F := Ideal) .add [1] S21 (k0_pay9 l) 0x00000000#32 reduces_S21x8192_S21 (.inl rfl) rfl)
      shapeCasts_S21_S1x21)) shapeCasts_S1x21_S1x21 (ix2 (0 : Fin 1) k) = _
  rw [shapeCast_self, addf_apply, shapeCast_a_1a_apply, laneSum_apply]
  exact congrArg (acc (ix2 (0 : Fin 1) k) + ·) (Finset.sum_congr rfl fun j _ => mask_apply l k j)

/-! The product's operand indices, coordinate by coordinate: the contraction runs over the lanes of both operands. -/

theorem lhs_prod_0 (i : S256x21.Idx) (q : dot_S256x8192_S21x8192_S256x21_1_1_0_0_n_n.contr.Idx) :
    (dot_S256x8192_S21x8192_S256x21_1_1_0_0_n_n.lhsIdx i q 0).val = (i 0).val := by
  unfold DotDims.lhsIdx
  rw [dif_neg (show ¬(0 : Fin S256x8192.rank) ∈ dot_S256x8192_S21x8192_S256x21_1_1_0_0_n_n.lhsBatch by decide),
    dif_pos (show (0 : Fin S256x8192.rank) ∈ dot_S256x8192_S21x8192_S256x21_1_1_0_0_n_n.lhsNonContracting by decide)]
  rfl
theorem lhs_prod_1 (i : S256x21.Idx) (q : dot_S256x8192_S21x8192_S256x21_1_1_0_0_n_n.contr.Idx) :
    (dot_S256x8192_S21x8192_S256x21_1_1_0_0_n_n.lhsIdx i q 1).val = (q ⟨0, by decide⟩).val :=
  dot_S256x8192_S21x8192_S256x21_1_1_0_0_n_n.lhsIdx_val_of_single rfl i q
theorem rhs_prod_0 (i : S256x21.Idx) (q : dot_S256x8192_S21x8192_S256x21_1_1_0_0_n_n.contr.Idx) :
    (dot_S256x8192_S21x8192_S256x21_1_1_0_0_n_n.rhsIdx i q 0).val = (i 1).val := by
  unfold DotDims.rhsIdx
  rw [dif_neg (show ¬(0 : Fin S21x8192.rank) ∈ dot_S256x8192_S21x8192_S256x21_1_1_0_0_n_n.rhsBatch by decide),
    dif_pos (show (0 : Fin S21x8192.rank) ∈ dot_S256x8192_S21x8192_S256x21_1_1_0_0_n_n.rhsNonContracting by decide)]
  rfl
theorem rhs_prod_1 (i : S256x21.Idx) (q : dot_S256x8192_S21x8192_S256x21_1_1_0_0_n_n.contr.Idx) :
    (dot_S256x8192_S21x8192_S256x21_1_1_0_0_n_n.rhsIdx i q 1).val = (q ⟨0, by decide⟩).val :=
  dot_S256x8192_S21x8192_S256x21_1_1_0_0_n_n.rhsIdx_val_of_single rfl i q

/-- The product into a zero accumulator, entry (ch, k): the sum over lanes of left (ch, j) times right (k, j). -/
theorem prod_apply (A : FVec Ideal S256x8192 .bf16) (B : FVec Ideal S21x8192 .bf16) (ch : Fin 256) (k : Fin 21) :
    matmul dot_S256x8192_S21x8192_S256x21_1_1_0_0_n_n none A B (constant (F := Ideal) S256x21 .f32 0x00000000#32) (ix2 ch k)
      = ∑ j : Fin 8192, A (ix2 ch j) * B (ix2 k j) := by
  simp only [matmul]
  rw [Ideal.matmul_constant_zero_apply,
    ← Equiv.sum_comp (contrEquiv1 dot_S256x8192_S21x8192_S256x21_1_1_0_0_n_n 8192 rfl rfl).symm]
  refine Finset.sum_congr rfl fun j _ => ?_
  have hk := contrEquiv1_symm_val dot_S256x8192_S21x8192_S256x21_1_1_0_0_n_n 8192 rfl rfl j
  have el : dot_S256x8192_S21x8192_S256x21_1_1_0_0_n_n.lhsIdx (ix2 ch k)
      ((contrEquiv1 dot_S256x8192_S21x8192_S256x21_1_1_0_0_n_n 8192 rfl rfl).symm j) = ix2 ch j :=
    funext fun a => Fin.ext (by
      match a with
      | ⟨0, _⟩ => exact lhs_prod_0 _ _
      | ⟨1, _⟩ => exact (lhs_prod_1 _ _).trans hk)
  have er : dot_S256x8192_S21x8192_S256x21_1_1_0_0_n_n.rhsIdx (ix2 ch k)
      ((contrEquiv1 dot_S256x8192_S21x8192_S256x21_1_1_0_0_n_n 8192 rfl rfl).symm j) = ix2 k j :=
    funext fun a => Fin.ext (by
      match a with
      | ⟨0, _⟩ => exact rhs_prod_0 _ _
      | ⟨1, _⟩ => exact (rhs_prod_1 _ _).trans hk)
  rw [el, er]

/-- The feature accumulator after a tile: what it held plus the sum over lanes of feature times mask. -/
theorem mom_apply (x : Vec Ideal S1x256x8192 .f32) (l : Vec Ideal S8192 .i32) (acc : Vec Ideal S256x21 .f32)
    (ch : Fin 256) (k : Fin 21) :
    k0_pay11 (F := Ideal) x l acc (ix2 ch k)
      = acc (ix2 ch k) + ∑ j : Fin 8192, x (ix3 (0 : Fin 1) ch j) * hot k (l (ix1 j)) := by
  unfold k0_pay11
  show shapeCast S256x21 (addf acc (matmul dot_S256x8192_S21x8192_S256x21_1_1_0_0_n_n none
      (truncf .bf16 (k0_pay8 x) bitsLt_bf16_f32) (truncf .bf16 (k0_pay9 l) bitsLt_bf16_f32)
      (constant (F := Ideal) S256x21 .f32 0x00000000#32))) shapeCasts_S256x21_S256x21 (ix2 ch k) = _
  rw [shapeCast_self, addf_apply]
  refine congrArg (acc (ix2 ch k) + ·) ?_
  refine (prod_apply _ _ ch k).trans ?_
  refine Finset.sum_congr rfl fun j _ => ?_
  rw [truncf_apply, truncf_apply, tile_apply, mask_apply]

/-- A tile's own part of the squared-norm sums: row `k` is the mask-weighted sum over lanes of the pixels' squared norms. -/
theorem ssqPart_apply (x : Vec Ideal S1x256x8192 .f32) (l : Vec Ideal S8192 .i32) (k : Fin 21) :
    k0_pay10 (F := Ideal) x l (ix2 (0 : Fin 1) k)
      = ∑ j : Fin 8192, hot k (l (ix1 j)) * ∑ ch : Fin 256, x (ix3 (0 : Fin 1) ch j) * x (ix3 (0 : Fin 1) ch j) := by
  unfold k0_pay10
  show shapeCast S1x21 (multiReduction (F := Ideal) .add [1] S21
      (mulf (k0_pay9 l) (broadcastTo S21x8192 (shapeCast S1x8192
        (multiReduction (F := Ideal) .add [0] S8192 (mulf (k0_pay8 x) (k0_pay8 x)) 0x00000000#32 reduces_S256x8192_S8192 (.inl rfl) rfl)
        shapeCasts_S8192_S1x8192) broadcasts_S1x8192_S21x8192))
      0x00000000#32 reduces_S21x8192_S21 (.inl rfl) rfl) shapeCasts_S21_S1x21 (ix2 (0 : Fin 1) k) = _
  rw [shapeCast_a_1a_apply, laneSum_apply]
  refine Finset.sum_congr rfl fun j _ => ?_
  rw [mulf_apply, mask_apply, broadcastTo_1b_ab_apply, shapeCast_a_1a_apply, chanSum_apply]
  refine congrArg (hot k (l (ix1 j)) * ·) (Finset.sum_congr rfl fun ch _ => ?_)
  rw [mulf_apply, tile_apply]

/-- The squared-norm accumulator after a tile: what it held plus the mask-weighted sum of the pixels' squared norms. -/
theorem ssq_apply (x : Vec Ideal S1x256x8192 .f32) (l : Vec Ideal S8192 .i32) (acc : Vec Ideal S1x21 .f32) (k : Fin 21) :
    k0_pay1 (F := Ideal) (k0_pay10 x l) acc (ix2 (0 : Fin 1) k)
      = acc (ix2 (0 : Fin 1) k)
        + ∑ j : Fin 8192, hot k (l (ix1 j)) * ∑ ch : Fin 256, x (ix3 (0 : Fin 1) ch j) * x (ix3 (0 : Fin 1) ch j) := by
  unfold k0_pay1
  show shapeCast S1x21 (addf acc (k0_pay10 x l)) shapeCasts_S1x21_S1x21 (ix2 (0 : Fin 1) k) = _
  rw [shapeCast_self, addf_apply, ssqPart_apply]

/-- The three resets store zero everywhere. -/
theorem reset_mom_apply (i : S256x21.Idx) : k0_pay5 (F := Ideal) i = 0 := by
  unfold k0_pay5
  show shapeCast S256x21 (broadcast S256x21 (Scalar.ofBits (F := Ideal) .f32 0x00000000#32)) shapeCasts_S256x21_S256x21 i = 0
  rw [shapeCast_self, broadcast_apply]
  exact Ideal.ofBits_zero_f32
theorem reset_cnt_apply (i : S1x21.Idx) : k0_pay6 (F := Ideal) i = 0 := by
  unfold k0_pay6
  show shapeCast S1x21 (broadcast S1x21 (Scalar.ofBits (F := Ideal) .f32 0x00000000#32)) shapeCasts_S1x21_S1x21 i = 0
  rw [shapeCast_self, broadcast_apply]
  exact Ideal.ofBits_zero_f32
theorem reset_ssq_apply (i : S1x21.Idx) : k0_pay7 (F := Ideal) i = 0 := by
  unfold k0_pay7
  show shapeCast S1x21 (broadcast S1x21 (Scalar.ofBits (F := Ideal) .f32 0x00000000#32)) shapeCasts_S1x21_S1x21 i = 0
  rw [shapeCast_self, broadcast_apply]
  exact Ideal.ofBits_zero_f32

/-- Writing an accumulator out only adds the block's leading unit axis. -/
theorem out_mom_apply (v : Vec Ideal S256x21 .f32) (ch : Fin 256) (k : Fin 21) :
    k0_pay2 (F := Ideal) v (ix3 (0 : Fin 1) ch k) = v (ix2 ch k) := by
  unfold k0_pay2
  exact shapeCast_ab_1ab_apply v _ (0 : Fin 1) ch k
theorem out_cnt_apply (v : Vec Ideal S1x21 .f32) (k : Fin 21) :
    k0_pay3 (F := Ideal) v (ix3 (0 : Fin 1) (0 : Fin 1) k) = v (ix2 (0 : Fin 1) k) := by
  unfold k0_pay3
  exact shapeCast_ab_1ab_apply v _ (0 : Fin 1) (0 : Fin 1) k
theorem out_ssq_apply (v : Vec Ideal S1x21 .f32) (k : Fin 21) :
    k0_pay4 (F := Ideal) v (ix3 (0 : Fin 1) (0 : Fin 1) k) = v (ix2 (0 : Fin 1) k) := by
  unfold k0_pay4
  exact shapeCast_ab_1ab_apply v _ (0 : Fin 1) (0 : Fin 1) k

end Cert.KernelIdeal.Tile

end
-- ==== Proof.BodyPieces.lean ====
/-
  What one run of the body leaves behind, case by case.

  The body has three control cases along a core's 16 steps.  At the first step it clears its three accumulators and
  then adds the tile's contribution; at a middle step it adds the tile's contribution to what the step before left; at
  the last step it does the same and then copies the three accumulators out, each under a leading unit axis.  Every
  store covers its whole buffer, so what a buffer holds afterwards is the last payload stored there, and a load reads
  back the whole of what the buffer held.
-/
import proofs.«408412_j53137335386660_3_alg».proof.Proof.Gen.KernelIdeal.Frame
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic Idealize.SL.Sem
open Cert.KernelIdeal Cert.KernelIdeal.Gen

variable {F : FTy → Type} [FloatOps F]
variable (c : Dev nD) (i : grid0.Coords) (arg2 : Memref sig .tc .vmem S1x256x8192 .f32) (harg2 : arg2.IsWhole) (arg3 : Memref sig .tc .vmem S8192 .i32) (harg3 : arg3.IsWhole) (arg4 : Memref sig .tc .vmem S256x21 .f32) (harg4 : arg4.IsWhole) (arg5 : Memref sig .tc .vmem S1x256x21 .f32) (harg5 : arg5.IsWhole) (arg6 : Memref sig .tc .vmem S1x1x21 .f32) (harg6 : arg6.IsWhole) (arg7 : Memref sig .tc .vmem S1x1x21 .f32) (harg7 : arg7.IsWhole) (arg8 : Memref sig .tc .vmem S256x21 .f32) (harg8 : arg8.IsWhole) (arg9 : Memref sig .tc .vmem S1x21 .f32) (harg9 : arg9.IsWhole) (arg10 : Memref sig .tc .vmem S1x21 .f32) (harg10 : arg10.IsWhole)

/-! ## Zero offsets, however many axes

A whole-buffer rectangle sits at offset zero on every axis; the offsets are printed as a literal vector, and each
lemma about such a rectangle asks that vector to be the constant zero function. -/

private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-! ## First step: clear, then add the tile -/

section A
variable (hc0 : cond0_0 i) (hc1 : ¬cond0_1 i)
variable (x0 : Vec F S1x256x8192 .f32) (x1 : Vec F S8192 .i32) (x2 : Vec F S256x21 .f32)

/-- At the first step the moment accumulator ends as the tile's contribution added to the cleared block: the clearing
    store is read back whole by the load that follows it, and the accumulating store, the later of the two, covers the
    buffer. -/
theorem first_mom : sout0_A_0 c i arg2 harg2 arg3 harg3 arg4 harg4 arg5 harg5 arg6 harg6 arg7 harg7 arg8 harg8 arg9 harg9 arg10 harg10 hc0 hc1 x0 x1 x2 = k0_pay11 x0 x1 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S256x21) hz2, View.readCov_unit_zero (S := S256x21) _ hz2]
  simp only [View.readAt_eq_ld, harg2.read_unread, harg3.read_unread, harg8.read_unread, harg9.read_unread, harg10.read_unread, View.ld_unit_zero (S := S1x256x8192) hz3, View.ld_unit_zero (S := S8192) hz1, View.ld_unit_zero (S := S256x21) hz2, View.ld_unit_zero (S := S1x21) hz2]

/-- At the first step the count accumulator ends as the tile's counts added to the cleared row. -/
theorem first_cnt : sout0_A_1 c i arg2 harg2 arg3 harg3 arg4 harg4 arg5 harg5 arg6 harg6 arg7 harg7 arg8 harg8 arg9 harg9 arg10 harg10 hc0 hc1 x0 x1 x2 = k0_pay12 x1 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x21) hz2, View.readCov_unit_zero (S := S1x21) _ hz2]
  simp only [View.readAt_eq_ld, harg2.read_unread, harg3.read_unread, harg8.read_unread, harg9.read_unread, harg10.read_unread, View.ld_unit_zero (S := S1x256x8192) hz3, View.ld_unit_zero (S := S8192) hz1, View.ld_unit_zero (S := S256x21) hz2, View.ld_unit_zero (S := S1x21) hz2]

/-- At the first step the sum-of-squares accumulator ends as the tile's term added to the cleared row. -/
theorem first_ssq : sout0_A_2 c i arg2 harg2 arg3 harg3 arg4 harg4 arg5 harg5 arg6 harg6 arg7 harg7 arg8 harg8 arg9 harg9 arg10 harg10 hc0 hc1 x0 x1 x2 = k0_pay1 (k0_pay10 x0 x1) k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x21) hz2, View.readCov_unit_zero (S := S1x21) _ hz2]
  simp only [View.readAt_eq_ld, harg2.read_unread, harg3.read_unread, harg8.read_unread, harg9.read_unread, harg10.read_unread, View.ld_unit_zero (S := S1x256x8192) hz3, View.ld_unit_zero (S := S8192) hz1, View.ld_unit_zero (S := S256x21) hz2, View.ld_unit_zero (S := S1x21) hz2]

end A

/-! ## Middle step: add the tile to what the step before left -/

section B
variable (hc0 : ¬cond0_0 i) (hc1 : ¬cond0_1 i)
variable (x0 : Vec F S1x256x8192 .f32) (x1 : Vec F S8192 .i32) (x2 : Vec F S256x21 .f32)
variable (xs0 : Vec F S256x21 .f32) (xs1 : Vec F S1x21 .f32) (xs2 : Vec F S1x21 .f32)

/-- At a middle step the moment accumulator ends as the tile's contribution added to what it held: one store covering
    the buffer, its loads reading the buffers whole. -/
theorem mid_mom : sout0_B_0 c i arg2 harg2 arg3 harg3 arg4 harg4 arg5 harg5 arg6 harg6 arg7 harg7 arg8 harg8 arg9 harg9 arg10 harg10 hc0 hc1 x0 x1 x2 xs0 xs1 xs2 = k0_pay11 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg8.read_unread, harg9.read_unread, harg10.read_unread, View.ld_unit_zero (S := S1x256x8192) hz3, View.ld_unit_zero (S := S8192) hz1, View.ld_unit_zero (S := S256x21) hz2, View.ld_unit_zero (S := S1x21) hz2]

/-- At a middle step the count accumulator ends as the tile's counts added to what it held. -/
theorem mid_cnt : sout0_B_1 c i arg2 harg2 arg3 harg3 arg4 harg4 arg5 harg5 arg6 harg6 arg7 harg7 arg8 harg8 arg9 harg9 arg10 harg10 hc0 hc1 x0 x1 x2 xs0 xs1 xs2 = k0_pay12 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg8.read_unread, harg9.read_unread, harg10.read_unread, View.ld_unit_zero (S := S1x256x8192) hz3, View.ld_unit_zero (S := S8192) hz1, View.ld_unit_zero (S := S256x21) hz2, View.ld_unit_zero (S := S1x21) hz2]

/-- At a middle step the sum-of-squares accumulator ends as the tile's term added to what it held. -/
theorem mid_ssq : sout0_B_2 c i arg2 harg2 arg3 harg3 arg4 harg4 arg5 harg5 arg6 harg6 arg7 harg7 arg8 harg8 arg9 harg9 arg10 harg10 hc0 hc1 x0 x1 x2 xs0 xs1 xs2 = k0_pay1 (k0_pay10 x0 x1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg8.read_unread, harg9.read_unread, harg10.read_unread, View.ld_unit_zero (S := S1x256x8192) hz3, View.ld_unit_zero (S := S8192) hz1, View.ld_unit_zero (S := S256x21) hz2, View.ld_unit_zero (S := S1x21) hz2]

end B

/-! ## Last step: add the tile, then copy the accumulators out -/

section C
variable (hc0 : ¬cond0_0 i) (hc1 : cond0_1 i)
variable (x0 : Vec F S1x256x8192 .f32) (x1 : Vec F S8192 .i32) (x2 : Vec F S256x21 .f32)
variable (xs0 : Vec F S256x21 .f32) (xs1 : Vec F S1x21 .f32) (xs2 : Vec F S1x21 .f32)

/-- At the last step the moment accumulator is updated as at a middle step. -/
theorem last_mom : sout0_C_0 c i arg2 harg2 arg3 harg3 arg4 harg4 arg5 harg5 arg6 harg6 arg7 harg7 arg8 harg8 arg9 harg9 arg10 harg10 hc0 hc1 x0 x1 x2 xs0 xs1 xs2 = k0_pay11 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  simp only [View.readAt_eq_ld, harg2.read_unread, harg3.read_unread, harg8.read_unread, harg9.read_unread, harg10.read_unread, View.ld_unit_zero (S := S1x256x8192) hz3, View.ld_unit_zero (S := S8192) hz1, View.ld_unit_zero (S := S256x21) hz2, View.ld_unit_zero (S := S1x21) hz2]

/-- At the last step the count accumulator is updated as at a middle step. -/
theorem last_cnt : sout0_C_1 c i arg2 harg2 arg3 harg3 arg4 harg4 arg5 harg5 arg6 harg6 arg7 harg7 arg8 harg8 arg9 harg9 arg10 harg10 hc0 hc1 x0 x1 x2 xs0 xs1 xs2 = k0_pay12 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  simp only [View.readAt_eq_ld, harg2.read_unread, harg3.read_unread, harg8.read_unread, harg9.read_unread, harg10.read_unread, View.ld_unit_zero (S := S1x256x8192) hz3, View.ld_unit_zero (S := S8192) hz1, View.ld_unit_zero (S := S256x21) hz2, View.ld_unit_zero (S := S1x21) hz2]

/-- At the last step the sum-of-squares accumulator is updated as at a middle step. -/
theorem last_ssq : sout0_C_2 c i arg2 harg2 arg3 harg3 arg4 harg4 arg5 harg5 arg6 harg6 arg7 harg7 arg8 harg8 arg9 harg9 arg10 harg10 hc0 hc1 x0 x1 x2 xs0 xs1 xs2 = k0_pay1 (k0_pay10 x0 x1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  simp only [View.readAt_eq_ld, harg2.read_unread, harg3.read_unread, harg8.read_unread, harg9.read_unread, harg10.read_unread, View.ld_unit_zero (S := S1x256x8192) hz3, View.ld_unit_zero (S := S8192) hz1, View.ld_unit_zero (S := S256x21) hz2, View.ld_unit_zero (S := S1x21) hz2]

/-- At the last step the moment output block holds the updated accumulator under a leading unit axis: the load feeding
    the copy comes after the accumulating store and reads that store's payload back whole. -/
theorem last_out_mom : out0_C_3 c i arg2 harg2 arg3 harg3 arg4 harg4 arg5 harg5 arg6 harg6 arg7 harg7 arg8 harg8 arg9 harg9 arg10 harg10 hc0 hc1 x0 x1 x2 xs0 xs1 xs2 = k0_pay2 (k0_pay11 x0 x1 xs0) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3, View.readCov_unit_zero (S := S256x21) _ hz2]
  simp only [View.readAt_eq_ld, harg2.read_unread, harg3.read_unread, harg8.read_unread, harg9.read_unread, harg10.read_unread, View.ld_unit_zero (S := S1x256x8192) hz3, View.ld_unit_zero (S := S8192) hz1, View.ld_unit_zero (S := S256x21) hz2, View.ld_unit_zero (S := S1x21) hz2]

/-- At the last step the count output block holds the updated count row under a leading unit axis. -/
theorem last_out_cnt : out0_C_4 c i arg2 harg2 arg3 harg3 arg4 harg4 arg5 harg5 arg6 harg6 arg7 harg7 arg8 harg8 arg9 harg9 arg10 harg10 hc0 hc1 x0 x1 x2 xs0 xs1 xs2 = k0_pay3 (k0_pay12 x1 xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3, View.readCov_unit_zero (S := S1x21) _ hz2]
  simp only [View.readAt_eq_ld, harg2.read_unread, harg3.read_unread, harg8.read_unread, harg9.read_unread, harg10.read_unread, View.ld_unit_zero (S := S1x256x8192) hz3, View.ld_unit_zero (S := S8192) hz1, View.ld_unit_zero (S := S256x21) hz2, View.ld_unit_zero (S := S1x21) hz2]

/-- At the last step the sum-of-squares output block holds the updated row under a leading unit axis. -/
theorem last_out_ssq : out0_C_5 c i arg2 harg2 arg3 harg3 arg4 harg4 arg5 harg5 arg6 harg6 arg7 harg7 arg8 harg8 arg9 harg9 arg10 harg10 hc0 hc1 x0 x1 x2 xs0 xs1 xs2 = k0_pay4 (k0_pay1 (k0_pay10 x0 x1) xs2) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3, View.readCov_unit_zero (S := S1x21) _ hz2]
  simp only [View.readAt_eq_ld, harg2.read_unread, harg3.read_unread, harg8.read_unread, harg9.read_unread, harg10.read_unread, View.ld_unit_zero (S := S1x256x8192) hz3, View.ld_unit_zero (S := S8192) hz1, View.ld_unit_zero (S := S256x21) hz2, View.ld_unit_zero (S := S1x21) hz2]

end C

end Cert.KernelIdeal.Body

end
-- ==== Proof.Accumulated.lean ====
/-
  The accumulators after each grid point.

  Grid point `t` is step `t % 16` of core `t / 16`.  By induction along a core's steps, after point `t` each of
  its three accumulators holds the sum of the contributions of tiles `16 (t / 16)` to `t`: the first step starts
  from zero, every later step adds its tile to what the step before left.  At a core's last step the three output
  buffers receive these sums, now over all 16 of the core's tiles.
-/
import proofs.«408412_j53137335386660_3_alg».proof.Proof.Gen.KernelIdeal.Frame
import proofs.«408412_j53137335386660_3_alg».proof.Proof.MomentDefs
import proofs.«408412_j53137335386660_3_alg».proof.Proof.TileSums
import proofs.«408412_j53137335386660_3_alg».proof.Proof.TileBlocks
import proofs.«408412_j53137335386660_3_alg».proof.Proof.BodyPieces
import Idealize.ShloMosaic.Lib.ValueIdx
import Idealize.ShloMosaic.Lib.Pipeline.Value

set_option maxRecDepth 16384

noncomputable section

namespace Cert.KernelIdeal.Acc

open Idealize.ShloMosaic Idealize.ShloMosaic.TcCoe Idealize.ShloMosaic.ValueIdx Idealize.SL.Sem
open Cert.KernelIdeal Cert.KernelIdeal.Gen Cert.KernelIdeal.Tile Cert.Moments

/-! ## How a core's partial sums grow

  A core's partial sum over its first `r` tiles is a sum over `range r`.  At the core's first step (`t % 16 = 0`) the
  range is `range 1` and its one tile is `16 (t / 16) + 0 = t`; at a later step the core is the same,
  the range grows by one, and the new last tile is `16 (n / 16) + (n % 16 + 1) = n + 1`. -/

section sums
variable (X : SX.Idx → EReal) (L : SL.Idx → BitVec 32)

theorem accMom_first (t : ℕ) (h : t % 16 = 0) (ch : Fin 256) (k : Fin 21) :
    accMom X L (t / 16) (t % 16 + 1) ch k = 0 + tileMom X L t ch k := by
  have e : 16 * (t / 16) + 0 = t := by omega
  rw [h]; unfold accMom
  rw [Finset.sum_range_succ, Finset.sum_range_zero, e]

theorem accCnt_first (t : ℕ) (h : t % 16 = 0) (k : Fin 21) :
    accCnt L (t / 16) (t % 16 + 1) k = 0 + tileCnt L t k := by
  have e : 16 * (t / 16) + 0 = t := by omega
  rw [h]; unfold accCnt
  rw [Finset.sum_range_succ, Finset.sum_range_zero, e]

theorem accSsq_first (t : ℕ) (h : t % 16 = 0) (k : Fin 21) :
    accSsq X L (t / 16) (t % 16 + 1) k = 0 + tileSsq X L t k := by
  have e : 16 * (t / 16) + 0 = t := by omega
  rw [h]; unfold accSsq
  rw [Finset.sum_range_succ, Finset.sum_range_zero, e]

theorem accMom_next (n : ℕ) (h : ¬(n + 1) % 16 = 0) (ch : Fin 256) (k : Fin 21) :
    accMom X L ((n + 1) / 16) ((n + 1) % 16 + 1) ch k
      = accMom X L (n / 16) (n % 16 + 1) ch k + tileMom X L (n + 1) ch k := by
  have e1 : (n + 1) / 16 = n / 16 := by omega
  have e2 : (n + 1) % 16 = n % 16 + 1 := by omega
  have e3 : 16 * (n / 16) + (n % 16 + 1) = n + 1 := by omega
  rw [e1, e2]; unfold accMom
  rw [Finset.sum_range_succ _ (n % 16 + 1), e3]

theorem accCnt_next (n : ℕ) (h : ¬(n + 1) % 16 = 0) (k : Fin 21) :
    accCnt L ((n + 1) / 16) ((n + 1) % 16 + 1) k = accCnt L (n / 16) (n % 16 + 1) k + tileCnt L (n + 1) k := by
  have e1 : (n + 1) / 16 = n / 16 := by omega
  have e2 : (n + 1) % 16 = n % 16 + 1 := by omega
  have e3 : 16 * (n / 16) + (n % 16 + 1) = n + 1 := by omega
  rw [e1, e2]; unfold accCnt
  rw [Finset.sum_range_succ _ (n % 16 + 1), e3]

theorem accSsq_next (n : ℕ) (h : ¬(n + 1) % 16 = 0) (k : Fin 21) :
    accSsq X L ((n + 1) / 16) ((n + 1) % 16 + 1) k = accSsq X L (n / 16) (n % 16 + 1) k + tileSsq X L (n + 1) k := by
  have e1 : (n + 1) / 16 = n / 16 := by omega
  have e2 : (n + 1) % 16 = n % 16 + 1 := by omega
  have e3 : 16 * (n / 16) + (n % 16 + 1) = n + 1 := by omega
  rw [e1, e2]; unfold accSsq
  rw [Finset.sum_range_succ _ (n % 16 + 1), e3]

end sums

variable (m : (ℓ : Loc nD τ sig) → Buf (Elt Ideal) ℓ)

/-! ## One tile's contribution, read off the staged blocks

  Lane `j` of the blocks staged at point `t` is pixel `lane t j` of the batch, so the sums a step forms over its
  blocks' 8192 lanes are tile `t`'s parts of the three moments. -/

theorem tile_mom (c : Dev nD) (t : Fin cfg0.N) (ch : Fin 256) (k : Fin 21) :
    ∑ j : Fin 8192, xblk m c t (ix3 (0 : Fin 1) ch j) * hot k (lblk m c t (ix1 j))
      = tileMom (xarg m c) (larg m c) t.val ch k := by
  unfold tileMom
  exact Finset.sum_congr rfl fun j _ => by rw [xblk_apply, lblk_apply]

theorem tile_cnt (c : Dev nD) (t : Fin cfg0.N) (k : Fin 21) :
    ∑ j : Fin 8192, hot k (lblk m c t (ix1 j)) = tileCnt (larg m c) t.val k := by
  unfold tileCnt
  exact Finset.sum_congr rfl fun j _ => by rw [lblk_apply]

theorem tile_ssq (c : Dev nD) (t : Fin cfg0.N) (k : Fin 21) :
    ∑ j : Fin 8192, hot k (lblk m c t (ix1 j))
        * ∑ ch : Fin 256, xblk m c t (ix3 (0 : Fin 1) ch j) * xblk m c t (ix3 (0 : Fin 1) ch j)
      = tileSsq (xarg m c) (larg m c) t.val k := by
  unfold tileSsq
  refine Finset.sum_congr rfl fun j _ => ?_
  rw [lblk_apply, Finset.sum_congr rfl fun ch _ => by rw [xblk_apply]]

/-! ## One step of a core

  The first step of a core resets the three accumulators and adds its tile; every later step adds its tile to what the
  step before left; the last step also copies the three sums it has just formed to the output buffers. -/

/-- A core's first step leaves zero plus its tile in each accumulator. -/
theorem step_first (c : Dev nD) (t : Fin cfg0.N) (h0 : t.val % 16 = 0) (h1 : ¬t.val % 16 = 15) :
    (∀ (ch : Fin 256) (k : Fin 21), (outsAt0 m c t.val t.isLt).2.2.2.1 (ix2 ch k)
        = 0 + tileMom (xarg m c) (larg m c) t.val ch k)
    ∧ (∀ k : Fin 21, (outsAt0 m c t.val t.isLt).2.2.2.2.1 (ix2 (0 : Fin 1) k) = 0 + tileCnt (larg m c) t.val k)
    ∧ (∀ k : Fin 21, (outsAt0 m c t.val t.isLt).2.2.2.2.2 (ix2 (0 : Fin 1) k)
        = 0 + tileSsq (xarg m c) (larg m c) t.val k) := by
  rw [outsAt0_A m c t h0 h1]; dsimp only
  refine ⟨fun ch k => ?_, fun k => ?_, fun k => ?_⟩
  · refine (congrFun (Cert.KernelIdeal.Body.first_mom (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) (ix2 ch k)).trans ?_
    refine (mom_apply (xblk m c t) (lblk m c t) (k0_pay5 (F := Ideal)) ch k).trans ?_
    rw [reset_mom_apply, tile_mom]
  · refine (congrFun (Cert.KernelIdeal.Body.first_cnt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) (ix2 (0 : Fin 1) k)).trans ?_
    refine (cnt_apply (lblk m c t) (k0_pay6 (F := Ideal)) k).trans ?_
    rw [reset_cnt_apply, tile_cnt]
  · refine (congrFun (Cert.KernelIdeal.Body.first_ssq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) (ix2 (0 : Fin 1) k)).trans ?_
    refine (ssq_apply (xblk m c t) (lblk m c t) (k0_pay7 (F := Ideal)) k).trans ?_
    rw [reset_ssq_apply, tile_ssq]

/-- A middle step adds its tile to what the step before left in each accumulator. -/
theorem step_mid (c : Dev nD) (t : Fin cfg0.N) (h0 : ¬t.val % 16 = 0) (h1 : ¬t.val % 16 = 15)
    (hp : t.val - 1 < cfg0.N) :
    (∀ (ch : Fin 256) (k : Fin 21), (outsAt0 m c t.val t.isLt).2.2.2.1 (ix2 ch k)
        = (outsAt0 m c (t.val - 1) hp).2.2.2.1 (ix2 ch k) + tileMom (xarg m c) (larg m c) t.val ch k)
    ∧ (∀ k : Fin 21, (outsAt0 m c t.val t.isLt).2.2.2.2.1 (ix2 (0 : Fin 1) k)
        = (outsAt0 m c (t.val - 1) hp).2.2.2.2.1 (ix2 (0 : Fin 1) k) + tileCnt (larg m c) t.val k)
    ∧ (∀ k : Fin 21, (outsAt0 m c t.val t.isLt).2.2.2.2.2 (ix2 (0 : Fin 1) k)
        = (outsAt0 m c (t.val - 1) hp).2.2.2.2.2 (ix2 (0 : Fin 1) k) + tileSsq (xarg m c) (larg m c) t.val k) := by
  rw [outsAt0_B m c t h0 h1]; dsimp only
  refine ⟨fun ch k => ?_, fun k => ?_, fun k => ?_⟩
  · refine (congrFun (Cert.KernelIdeal.Body.mid_mom (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) hp).2.2.2.1 (outsAt0 m c (t.val - 1) hp).2.2.2.2.1 (outsAt0 m c (t.val - 1) hp).2.2.2.2.2) (ix2 ch k)).trans ?_
    refine (mom_apply (xblk m c t) (lblk m c t) (outsAt0 m c (t.val - 1) hp).2.2.2.1 ch k).trans ?_
    rw [tile_mom]
  · refine (congrFun (Cert.KernelIdeal.Body.mid_cnt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) hp).2.2.2.1 (outsAt0 m c (t.val - 1) hp).2.2.2.2.1 (outsAt0 m c (t.val - 1) hp).2.2.2.2.2) (ix2 (0 : Fin 1) k)).trans ?_
    refine (cnt_apply (lblk m c t) (outsAt0 m c (t.val - 1) hp).2.2.2.2.1 k).trans ?_
    rw [tile_cnt]
  · refine (congrFun (Cert.KernelIdeal.Body.mid_ssq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) hp).2.2.2.1 (outsAt0 m c (t.val - 1) hp).2.2.2.2.1 (outsAt0 m c (t.val - 1) hp).2.2.2.2.2) (ix2 (0 : Fin 1) k)).trans ?_
    refine (ssq_apply (xblk m c t) (lblk m c t) (outsAt0 m c (t.val - 1) hp).2.2.2.2.2 k).trans ?_
    rw [tile_ssq]

/-- A core's last step adds its tile like a middle step, and the output buffers receive the three new sums. -/
theorem step_last (c : Dev nD) (t : Fin cfg0.N) (h0 : ¬t.val % 16 = 0) (h1 : t.val % 16 = 15)
    (hp : t.val - 1 < cfg0.N) :
    (∀ (ch : Fin 256) (k : Fin 21), (outsAt0 m c t.val t.isLt).2.2.2.1 (ix2 ch k)
        = (outsAt0 m c (t.val - 1) hp).2.2.2.1 (ix2 ch k) + tileMom (xarg m c) (larg m c) t.val ch k)
    ∧ (∀ k : Fin 21, (outsAt0 m c t.val t.isLt).2.2.2.2.1 (ix2 (0 : Fin 1) k)
        = (outsAt0 m c (t.val - 1) hp).2.2.2.2.1 (ix2 (0 : Fin 1) k) + tileCnt (larg m c) t.val k)
    ∧ (∀ k : Fin 21, (outsAt0 m c t.val t.isLt).2.2.2.2.2 (ix2 (0 : Fin 1) k)
        = (outsAt0 m c (t.val - 1) hp).2.2.2.2.2 (ix2 (0 : Fin 1) k) + tileSsq (xarg m c) (larg m c) t.val k)
    ∧ (∀ (ch : Fin 256) (k : Fin 21), (outsAt0 m c t.val t.isLt).1 (ix3 (0 : Fin 1) ch k)
        = (outsAt0 m c t.val t.isLt).2.2.2.1 (ix2 ch k))
    ∧ (∀ k : Fin 21, (outsAt0 m c t.val t.isLt).2.1 (ix3 (0 : Fin 1) (0 : Fin 1) k)
        = (outsAt0 m c t.val t.isLt).2.2.2.2.1 (ix2 (0 : Fin 1) k))
    ∧ (∀ k : Fin 21, (outsAt0 m c t.val t.isLt).2.2.1 (ix3 (0 : Fin 1) (0 : Fin 1) k)
        = (outsAt0 m c t.val t.isLt).2.2.2.2.2 (ix2 (0 : Fin 1) k)) := by
  rw [outsAt0_C m c t h0 h1]; dsimp only
  refine ⟨fun ch k => ?_, fun k => ?_, fun k => ?_, fun ch k => ?_, fun k => ?_, fun k => ?_⟩
  · refine (congrFun (Cert.KernelIdeal.Body.last_mom (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) hp).2.2.2.1 (outsAt0 m c (t.val - 1) hp).2.2.2.2.1 (outsAt0 m c (t.val - 1) hp).2.2.2.2.2) (ix2 ch k)).trans ?_
    refine (mom_apply (xblk m c t) (lblk m c t) (outsAt0 m c (t.val - 1) hp).2.2.2.1 ch k).trans ?_
    rw [tile_mom]
  · refine (congrFun (Cert.KernelIdeal.Body.last_cnt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) hp).2.2.2.1 (outsAt0 m c (t.val - 1) hp).2.2.2.2.1 (outsAt0 m c (t.val - 1) hp).2.2.2.2.2) (ix2 (0 : Fin 1) k)).trans ?_
    refine (cnt_apply (lblk m c t) (outsAt0 m c (t.val - 1) hp).2.2.2.2.1 k).trans ?_
    rw [tile_cnt]
  · refine (congrFun (Cert.KernelIdeal.Body.last_ssq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) hp).2.2.2.1 (outsAt0 m c (t.val - 1) hp).2.2.2.2.1 (outsAt0 m c (t.val - 1) hp).2.2.2.2.2) (ix2 (0 : Fin 1) k)).trans ?_
    refine (ssq_apply (xblk m c t) (lblk m c t) (outsAt0 m c (t.val - 1) hp).2.2.2.2.2 k).trans ?_
    rw [tile_ssq]
  · refine (congrFun (Cert.KernelIdeal.Body.last_out_mom (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) hp).2.2.2.1 (outsAt0 m c (t.val - 1) hp).2.2.2.2.1 (outsAt0 m c (t.val - 1) hp).2.2.2.2.2) (ix3 (0 : Fin 1) ch k)).trans ?_
    refine (out_mom_apply _ ch k).trans ?_
    exact (congrFun (Cert.KernelIdeal.Body.last_mom (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) hp).2.2.2.1 (outsAt0 m c (t.val - 1) hp).2.2.2.2.1 (outsAt0 m c (t.val - 1) hp).2.2.2.2.2) (ix2 ch k)).symm
  · refine (congrFun (Cert.KernelIdeal.Body.last_out_cnt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) hp).2.2.2.1 (outsAt0 m c (t.val - 1) hp).2.2.2.2.1 (outsAt0 m c (t.val - 1) hp).2.2.2.2.2) (ix3 (0 : Fin 1) (0 : Fin 1) k)).trans ?_
    refine (out_cnt_apply _ k).trans ?_
    exact (congrFun (Cert.KernelIdeal.Body.last_cnt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) hp).2.2.2.1 (outsAt0 m c (t.val - 1) hp).2.2.2.2.1 (outsAt0 m c (t.val - 1) hp).2.2.2.2.2) (ix2 (0 : Fin 1) k)).symm
  · refine (congrFun (Cert.KernelIdeal.Body.last_out_ssq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) hp).2.2.2.1 (outsAt0 m c (t.val - 1) hp).2.2.2.2.1 (outsAt0 m c (t.val - 1) hp).2.2.2.2.2) (ix3 (0 : Fin 1) (0 : Fin 1) k)).trans ?_
    refine (out_ssq_apply _ k).trans ?_
    exact (congrFun (Cert.KernelIdeal.Body.last_ssq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) hp).2.2.2.1 (outsAt0 m c (t.val - 1) hp).2.2.2.2.1 (outsAt0 m c (t.val - 1) hp).2.2.2.2.2) (ix2 (0 : Fin 1) k)).symm

/-! ## The invariant, by induction on the point -/

/-- After point `n` the three accumulators hold the partial sums over the core's first `n % 16 + 1` tiles. -/
theorem inv (c : Dev nD) : ∀ (n : ℕ) (h : n < cfg0.N),
    (∀ (ch : Fin 256) (k : Fin 21), (outsAt0 m c n h).2.2.2.1 (ix2 ch k)
        = accMom (xarg m c) (larg m c) (n / 16) (n % 16 + 1) ch k)
    ∧ (∀ k : Fin 21, (outsAt0 m c n h).2.2.2.2.1 (ix2 (0 : Fin 1) k) = accCnt (larg m c) (n / 16) (n % 16 + 1) k)
    ∧ (∀ k : Fin 21, (outsAt0 m c n h).2.2.2.2.2 (ix2 (0 : Fin 1) k)
        = accSsq (xarg m c) (larg m c) (n / 16) (n % 16 + 1) k)
  | 0, h => by
    obtain ⟨a, b, d⟩ := step_first m c ⟨0, h⟩ (Nat.zero_mod _) (fun e => absurd ((Nat.zero_mod 16).symm.trans e) (by decide))
    refine ⟨fun ch k => ?_, fun k => ?_, fun k => ?_⟩
    · rw [accMom_first _ _ 0 (Nat.zero_mod _) ch k]; exact a ch k
    · rw [accCnt_first _ 0 (Nat.zero_mod _) k]; exact b k
    · rw [accSsq_first _ _ 0 (Nat.zero_mod _) k]; exact d k
  | n + 1, h => by
    have hN : cfg0.N = 32 := N_0
    obtain ⟨ia, ib, ic⟩ := inv c n (Nat.lt_of_succ_lt h)
    by_cases h0 : (n + 1) % 16 = 0
    · have h1 : ¬(n + 1) % 16 = 15 := by omega
      obtain ⟨a, b, d⟩ := step_first m c ⟨n + 1, h⟩ h0 h1
      refine ⟨fun ch k => ?_, fun k => ?_, fun k => ?_⟩
      · rw [accMom_first _ _ (n + 1) h0 ch k]; exact a ch k
      · rw [accCnt_first _ (n + 1) h0 k]; exact b k
      · rw [accSsq_first _ _ (n + 1) h0 k]; exact d k
    · by_cases h1 : (n + 1) % 16 = 15
      · obtain ⟨a, b, d, _⟩ := step_last m c ⟨n + 1, h⟩ h0 h1 (Nat.lt_of_succ_lt h)
        refine ⟨fun ch k => ?_, fun k => ?_, fun k => ?_⟩
        · rw [accMom_next _ _ n h0 ch k, ← ia ch k]; exact a ch k
        · rw [accCnt_next _ n h0 k, ← ib k]; exact b k
        · rw [accSsq_next _ _ n h0 k, ← ic k]; exact d k
      · obtain ⟨a, b, d⟩ := step_mid m c ⟨n + 1, h⟩ h0 h1 (Nat.lt_of_succ_lt h)
        refine ⟨fun ch k => ?_, fun k => ?_, fun k => ?_⟩
        · rw [accMom_next _ _ n h0 ch k, ← ia ch k]; exact a ch k
        · rw [accCnt_next _ n h0 k, ← ib k]; exact b k
        · rw [accSsq_next _ _ n h0 k, ← ic k]; exact d k

/-! ## The accumulators and the output buffers at a point -/

/-- After point `t` the feature accumulator holds the core's first `t % 16 + 1` tiles' sums. -/
theorem acc_mom (c : Dev nD) (t : Fin cfg0.N) (ch : Fin 256) (k : Fin 21) :
    (outsAt0 m c t.val t.isLt).2.2.2.1 (ix2 ch k)
      = accMom (xarg m c) (larg m c) (t.val / 16) (t.val % 16 + 1) ch k :=
  (inv m c t.val t.isLt).1 ch k

theorem acc_cnt (c : Dev nD) (t : Fin cfg0.N) (k : Fin 21) :
    (outsAt0 m c t.val t.isLt).2.2.2.2.1 (ix2 (0 : Fin 1) k)
      = accCnt (larg m c) (t.val / 16) (t.val % 16 + 1) k :=
  (inv m c t.val t.isLt).2.1 k

theorem acc_ssq (c : Dev nD) (t : Fin cfg0.N) (k : Fin 21) :
    (outsAt0 m c t.val t.isLt).2.2.2.2.2 (ix2 (0 : Fin 1) k)
      = accSsq (xarg m c) (larg m c) (t.val / 16) (t.val % 16 + 1) k :=
  (inv m c t.val t.isLt).2.2 k

/-- At a core's last step the output buffers receive the sums over all 16 of its tiles. -/
theorem out_mom (c : Dev nD) (t : Fin cfg0.N) (h : t.val % 16 = 15) (ch : Fin 256) (k : Fin 21) :
    (outsAt0 m c t.val t.isLt).1 (ix3 (0 : Fin 1) ch k) = accMom (xarg m c) (larg m c) (t.val / 16) 16 ch k := by
  have h0 : ¬t.val % 16 = 0 := by omega
  have e := acc_mom m c t ch k
  rw [h] at e
  exact ((step_last m c t h0 h (Nat.lt_of_le_of_lt (Nat.sub_le _ _) t.isLt)).2.2.2.1 ch k).trans e

theorem out_cnt (c : Dev nD) (t : Fin cfg0.N) (h : t.val % 16 = 15) (k : Fin 21) :
    (outsAt0 m c t.val t.isLt).2.1 (ix3 (0 : Fin 1) (0 : Fin 1) k) = accCnt (larg m c) (t.val / 16) 16 k := by
  have h0 : ¬t.val % 16 = 0 := by omega
  have e := acc_cnt m c t k
  rw [h] at e
  exact ((step_last m c t h0 h (Nat.lt_of_le_of_lt (Nat.sub_le _ _) t.isLt)).2.2.2.2.1 k).trans e

theorem out_ssq (c : Dev nD) (t : Fin cfg0.N) (h : t.val % 16 = 15) (k : Fin 21) :
    (outsAt0 m c t.val t.isLt).2.2.1 (ix3 (0 : Fin 1) (0 : Fin 1) k)
      = accSsq (xarg m c) (larg m c) (t.val / 16) 16 k := by
  have h0 : ¬t.val % 16 = 0 := by omega
  have e := acc_ssq m c t k
  rw [h] at e
  exact ((step_last m c t h0 h (Nat.lt_of_le_of_lt (Nat.sub_le _ _) t.isLt)).2.2.2.2.2 k).trans e

end Cert.KernelIdeal.Acc

end
-- ==== Proof.CoreSums.lean ====
/-
  The three output arrays after the run.

  Each output array has one block per core, written back once, at the core's last step (points 15 and 31), and the
  two blocks tile the array.  So row `p` of each array is what core `p`'s accumulator held after its 16 tiles.
-/
import proofs.«408412_j53137335386660_3_alg».proof.Proof.Gen.KernelIdeal.Frame
import proofs.«408412_j53137335386660_3_alg».proof.Proof.MomentDefs
import proofs.«408412_j53137335386660_3_alg».proof.Proof.TileBlocks
import proofs.«408412_j53137335386660_3_alg».proof.Proof.Accumulated
import Idealize.ShloMosaic.Lib.ValueIdx
import Idealize.ShloMosaic.Lib.Pipeline.Value

set_option maxRecDepth 16384

noncomputable section

namespace Cert.KernelIdeal.Core

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tile Cert.Moments

variable (m : (ℓ : Loc nD τ sig) → Buf (Elt Ideal) ℓ)

/-- Where the index maps put the three output blocks at point `t`: block (t / 16, 0, 0). -/
theorem idx_out : ∀ t : Fin cfg0.N,
    win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0
    ∧ win0_5.index t (0 : Fin 3) = t.val / 16 ∧ win0_5.index t (1 : Fin 3) = 0 ∧ win0_5.index t (2 : Fin 3) = 0 :=
  (by decide +kernel : ∀ t : Fin grid0.N, _)

/-- The last step of core `p` is point `16 p + 15`. -/
theorem last_step (p : ℕ) (hp : p < 2) : ∃ t : Fin cfg0.N, t.val = 16 * p + 15 :=
  ⟨⟨16 * p + 15, by rw [show cfg0.N = 32 from N_0]; omega⟩, rfl⟩

/-- The accumulated sums depend on the core, the channel and the class only through their numbers. -/
theorem accMom_congr (X : SX.Idx → EReal) (L : SL.Idx → BitVec 32) {p p' : ℕ} {ch ch' : Fin 256} {k k' : Fin 21}
    (hp : p = p') (hc : ch.val = ch'.val) (hk : k.val = k'.val) : accMom X L p 16 ch k = accMom X L p' 16 ch' k' := by
  obtain rfl := hp; obtain rfl := Fin.ext hc; obtain rfl := Fin.ext hk; rfl

theorem accCnt_congr (L : SL.Idx → BitVec 32) {p p' : ℕ} {k k' : Fin 21}
    (hp : p = p') (hk : k.val = k'.val) : accCnt L p 16 k = accCnt L p' 16 k' := by
  obtain rfl := hp; obtain rfl := Fin.ext hk; rfl

theorem accSsq_congr (X : SX.Idx → EReal) (L : SL.Idx → BitVec 32) {p p' : ℕ} {k k' : Fin 21}
    (hp : p = p') (hk : k.val = k'.val) : accSsq X L p 16 k = accSsq X L p' 16 k' := by
  obtain rfl := hp; obtain rfl := Fin.ext hk; rfl

/-! ## The feature sums -/

/-- The feature-sum array as one function of its index: row `p` is core `p`'s sums over its 16 tiles. -/
abbrev momArr (c : Dev nD) : Buf (Elt Ideal) ((c : Thread nD τ).loc main_v3_0) :=
  fun i => accMom (xarg m c) (larg m c) (i 0).val 16 ⟨(i 1).val, (i 1).isLt⟩ ⟨(i 2).val, (i 2).isLt⟩

/-- What a core's last step writes back is its row of that array: entry (0, ch, k) of the block sits at
    (t / 16, ch, k) of the array. -/
theorem flushed_mom (c : Dev nD) (t : Fin cfg0.N) (hf : (cfg0.win 3).flush t = true) :
    (dats m 0 c).flushed 3 t = ((cfg0.win 3).blk t).view.read (Elt Ideal) (momArr m c) := by
  have h15 : t.val % 16 = 15 := (flush0_3 t).mp hf
  obtain ⟨e0, e1, e2, -⟩ := idx_out t
  show (cfg0.win 3).cut (grid0.coords t) ((dats m 0 c).after 3 t) = _
  rw [after0_3]
  funext y
  rw [View.read_apply]
  revert y
  show ∀ y : S1x256x21.Idx, (outsAt0 m c t.val t.isLt).1 y = momArr m c (((cfg0.win 3).blk t).view.emb y)
  intro y
  obtain ⟨a, b, d, rfl⟩ : ∃ (a : Fin 1) (b : Fin 256) (d : Fin 21), y = ix3 a b d := ⟨y 0, y 1, y 2, eq_ix3 y⟩
  obtain rfl : a = 0 := Subsingleton.elim _ _
  refine (Acc.out_mom m c t h15 b d).trans (accMom_congr _ _ ?_ ?_ ?_)
  · show t.val / 16 = win0_3.index t (0 : Fin 3) * 1 + 1 * 0
    rw [e0]; omega
  · show b.val = win0_3.index t (1 : Fin 3) * 256 + 1 * b.val
    rw [e1]; omega
  · show d.val = win0_3.index t (2 : Fin 3) * 21 + 1 * d.val
    rw [e2]; omega

/-- An index of the array is in point `t`'s block iff each coordinate is in the block's range on its axis. -/
theorem mem_blk_mom (t : Fin cfg0.N) (i : S2x256x21.Idx) :
    i ∈ ((cfg0.win 3).blk t).view.set ↔ ∀ a : Fin 3, win0_3.index t a * S1x256x21.size a ≤ (i a).val ∧ (i a).val < win0_3.index t a * S1x256x21.size a + S1x256x21.size a := by
  show i ∈ ((View.whole main_v3_0).slice (win0_3.rect t)).set ↔ _
  rw [View.set_slice_whole, Rect.mem_set_unit]
  exact Iff.rfl

/-- Row `p` of the array is the block core `p`'s last step writes back, so the two blocks tile the array. -/
theorem cover_mom (i : S2x256x21.Idx) :
    ∃ t : Fin cfg0.N, (cfg0.win 3).flush t = true ∧ i ∈ ((cfg0.win 3).blk t).view.set := by
  have h0 : (i 0).val < 2 := (i 0).isLt
  have h1 : (i 1).val < 256 := (i 1).isLt
  have h2 : (i 2).val < 21 := (i 2).isLt
  obtain ⟨t, ht⟩ := last_step (i 0).val h0
  obtain ⟨e0, e1, e2, -⟩ := idx_out t
  refine ⟨t, (flush0_3 t).mpr (by omega), ?_⟩
  rw [mem_blk_mom]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 21 ≤ (i 2).val ∧ (i 2).val < win0_3.index t (2 : Fin 3) * 21 + 21; omega

/-- The feature-sum array after the run. -/
theorem final_mom (c : Dev nD) : (dats m 0 c).arrAt 3 cfg0.N = momArr m c :=
  (dats m 0 c).arrAt_eq_of_cover 3 (momArr m c) (flushed_mom m c) cover_mom

theorem core_mom (c : Dev nD) (p : Fin 2) (ch : Fin 256) (k : Fin 21) :
    ((dats m 0 c).arrAt 3 cfg0.N : Vec Ideal S2x256x21 .f32) (ix3 p ch k)
      = accMom (xarg m c) (larg m c) p.val 16 ch k :=
  congrFun (final_mom m c) (ix3 p ch k)

/-! ## The pixel counts -/

/-- The count array as one function of its index: row `p` is core `p`'s pixel counts over its 16 tiles. -/
abbrev cntArr (c : Dev nD) : Buf (Elt Ideal) ((c : Thread nD τ).loc main_v3_1) :=
  fun i => accCnt (larg m c) (i 0).val 16 ⟨(i 2).val, (i 2).isLt⟩

/-- What a core's last step writes back is its row of that array: entry (0, 0, k) of the block sits at
    (t / 16, 0, k) of the array. -/
theorem flushed_cnt (c : Dev nD) (t : Fin cfg0.N) (hf : (cfg0.win 4).flush t = true) :
    (dats m 0 c).flushed 4 t = ((cfg0.win 4).blk t).view.read (Elt Ideal) (cntArr m c) := by
  have h15 : t.val % 16 = 15 := (flush0_4 t).mp hf
  obtain ⟨-, -, -, e0, e1, e2, -⟩ := idx_out t
  show (cfg0.win 4).cut (grid0.coords t) ((dats m 0 c).after 4 t) = _
  rw [after0_4]
  funext y
  rw [View.read_apply]
  revert y
  show ∀ y : S1x1x21.Idx, (outsAt0 m c t.val t.isLt).2.1 y = cntArr m c (((cfg0.win 4).blk t).view.emb y)
  intro y
  obtain ⟨a, b, d, rfl⟩ : ∃ (a : Fin 1) (b : Fin 1) (d : Fin 21), y = ix3 a b d := ⟨y 0, y 1, y 2, eq_ix3 y⟩
  obtain rfl : a = 0 := Subsingleton.elim _ _
  obtain rfl : b = 0 := Subsingleton.elim _ _
  refine (Acc.out_cnt m c t h15 d).trans (accCnt_congr _ ?_ ?_)
  · show t.val / 16 = win0_4.index t (0 : Fin 3) * 1 + 1 * 0
    rw [e0]; omega
  · show d.val = win0_4.index t (2 : Fin 3) * 21 + 1 * d.val
    rw [e2]; omega

/-- An index of the array is in point `t`'s block iff each coordinate is in the block's range on its axis. -/
theorem mem_blk_cnt (t : Fin cfg0.N) (i : S2x1x21.Idx) :
    i ∈ ((cfg0.win 4).blk t).view.set ↔ ∀ a : Fin 3, win0_4.index t a * S1x1x21.size a ≤ (i a).val ∧ (i a).val < win0_4.index t a * S1x1x21.size a + S1x1x21.size a := by
  show i ∈ ((View.whole main_v3_1).slice (win0_4.rect t)).set ↔ _
  rw [View.set_slice_whole, Rect.mem_set_unit]
  exact Iff.rfl

/-- Row `p` of the array is the block core `p`'s last step writes back, so the two blocks tile the array. -/
theorem cover_cnt (i : S2x1x21.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 21 := (i 2).isLt
  obtain ⟨t, ht⟩ := last_step (i 0).val h0
  obtain ⟨-, -, -, e0, e1, e2, -⟩ := idx_out t
  refine ⟨t, (flush0_4 t).mpr (by omega), ?_⟩
  rw [mem_blk_cnt]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 21 ≤ (i 2).val ∧ (i 2).val < win0_4.index t (2 : Fin 3) * 21 + 21; omega

/-- The array of pixel counts after the run. -/
theorem final_cnt (c : Dev nD) : (dats m 0 c).arrAt 4 cfg0.N = cntArr m c :=
  (dats m 0 c).arrAt_eq_of_cover 4 (cntArr m c) (flushed_cnt m c) cover_cnt

theorem core_cnt (c : Dev nD) (p : Fin 2) (k : Fin 21) :
    ((dats m 0 c).arrAt 4 cfg0.N : Vec Ideal S2x1x21 .f32) (ix3 p (0 : Fin 1) k)
      = accCnt (larg m c) p.val 16 k :=
  congrFun (final_cnt m c) (ix3 p (0 : Fin 1) k)

/-! ## The sums of squared norms -/

/-- The squared-norm array as one function of its index: row `p` is core `p`'s sums of squared norms over its 16 tiles. -/
abbrev ssqArr (c : Dev nD) : Buf (Elt Ideal) ((c : Thread nD τ).loc main_v3_2) :=
  fun i => accSsq (xarg m c) (larg m c) (i 0).val 16 ⟨(i 2).val, (i 2).isLt⟩

/-- What a core's last step writes back is its row of that array: entry (0, 0, k) of the block sits at
    (t / 16, 0, k) of the array. -/
theorem flushed_ssq (c : Dev nD) (t : Fin cfg0.N) (hf : (cfg0.win 5).flush t = true) :
    (dats m 0 c).flushed 5 t = ((cfg0.win 5).blk t).view.read (Elt Ideal) (ssqArr m c) := by
  have h15 : t.val % 16 = 15 := (flush0_5 t).mp hf
  obtain ⟨-, -, -, -, -, -, e0, e1, e2⟩ := idx_out t
  show (cfg0.win 5).cut (grid0.coords t) ((dats m 0 c).after 5 t) = _
  rw [after0_5]
  funext y
  rw [View.read_apply]
  revert y
  show ∀ y : S1x1x21.Idx, (outsAt0 m c t.val t.isLt).2.2.1 y = ssqArr m c (((cfg0.win 5).blk t).view.emb y)
  intro y
  obtain ⟨a, b, d, rfl⟩ : ∃ (a : Fin 1) (b : Fin 1) (d : Fin 21), y = ix3 a b d := ⟨y 0, y 1, y 2, eq_ix3 y⟩
  obtain rfl : a = 0 := Subsingleton.elim _ _
  obtain rfl : b = 0 := Subsingleton.elim _ _
  refine (Acc.out_ssq m c t h15 d).trans (accSsq_congr _ _ ?_ ?_)
  · show t.val / 16 = win0_5.index t (0 : Fin 3) * 1 + 1 * 0
    rw [e0]; omega
  · show d.val = win0_5.index t (2 : Fin 3) * 21 + 1 * d.val
    rw [e2]; omega

/-- An index of the array is in point `t`'s block iff each coordinate is in the block's range on its axis. -/
theorem mem_blk_ssq (t : Fin cfg0.N) (i : S2x1x21.Idx) :
    i ∈ ((cfg0.win 5).blk t).view.set ↔ ∀ a : Fin 3, win0_5.index t a * S1x1x21.size a ≤ (i a).val ∧ (i a).val < win0_5.index t a * S1x1x21.size a + S1x1x21.size a := by
  show i ∈ ((View.whole main_v3_2).slice (win0_5.rect t)).set ↔ _
  rw [View.set_slice_whole, Rect.mem_set_unit]
  exact Iff.rfl

/-- Row `p` of the array is the block core `p`'s last step writes back, so the two blocks tile the array. -/
theorem cover_ssq (i : S2x1x21.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 21 := (i 2).isLt
  obtain ⟨t, ht⟩ := last_step (i 0).val h0
  obtain ⟨-, -, -, -, -, -, e0, e1, e2⟩ := idx_out t
  refine ⟨t, (flush0_5 t).mpr (by omega), ?_⟩
  rw [mem_blk_ssq]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 21 ≤ (i 2).val ∧ (i 2).val < win0_5.index t (2 : Fin 3) * 21 + 21; omega

/-- The array of sums of squared norms after the run. -/
theorem final_ssq (c : Dev nD) : (dats m 0 c).arrAt 5 cfg0.N = ssqArr m c :=
  (dats m 0 c).arrAt_eq_of_cover 5 (ssqArr m c) (flushed_ssq m c) cover_ssq

theorem core_ssq (c : Dev nD) (p : Fin 2) (k : Fin 21) :
    ((dats m 0 c).arrAt 5 cfg0.N : Vec Ideal S2x1x21 .f32) (ix3 p (0 : Fin 1) k)
      = accSsq (xarg m c) (larg m c) p.val 16 k :=
  congrFun (final_ssq m c) (ix3 p (0 : Fin 1) k)

end Cert.KernelIdeal.Core

end
-- ==== Proof.KernelLoss.lean ====
/-
  From the three output arrays to the loss.

  After the region the program adds the two rows of each array, forms the prototypes' squared norms and their
  inner products with the summed features, combines the three moments into each class's summed squared distance, and
  takes the loss of those sums and the counts.
-/
import proofs.«408412_j53137335386660_3_alg».proof.Proof.Gen.KernelIdeal.Frame.Runs
import proofs.«408412_j53137335386660_3_alg».proof.Proof.MomentDefs
import proofs.«408412_j53137335386660_3_alg».proof.Proof.TileBlocks
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Loss

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tile Cert.Moments

variable (m : (ℓ : Loc nD τ sig) → Buf (Elt Ideal) ℓ)

/-- The two rows of the per-channel, per-class sums added. -/
def momOf (A3 : FVec Ideal S2x256x21 .f32) : FVec Ideal S256x21 .f32 :=
  Host.reduceAdd A3 (constant (F := Ideal) S_ .f32 0x00000000#32) reducesTo_S2x256x21_S256x21_d0 h_S_

/-- The two rows of a per-class array added. -/
def rowsOf (A : FVec Ideal S2x1x21 .f32) : FVec Ideal S21 .f32 :=
  Host.reduceAdd (shapeCast S2x21 A shapeCasts_S2x1x21_S2x21) (constant (F := Ideal) S_ .f32 0x00000000#32)
    reducesTo_S2x21_S21_d0 h_S_

/-- Each prototype's squared norm. -/
def nrmOf (Pa : FVec Ideal S21x256 .f32) : FVec Ideal S21 .f32 :=
  Host.reduceAdd (mulf Pa Pa) (constant (F := Ideal) S_ .f32 0x00000000#32) reducesTo_S21x256_S21_d1 h_S_

/-- Each prototype's inner product with its class's summed features. -/
def crossOf (Pt M : FVec Ideal S256x21 .f32) : FVec Ideal S21 .f32 :=
  Host.reduceAdd (mulf Pt M) (constant (F := Ideal) S_ .f32 0x00000000#32) reducesTo_S256x21_S21_d0 h_S_

/-- The three moments combined: squared norms minus twice the inner product plus count times the prototype's norm. -/
def sseOf (A3 : FVec Ideal S2x256x21 .f32) (A4 A5 : FVec Ideal S2x1x21 .f32) (Pt : FVec Ideal S256x21 .f32)
    (Pa : FVec Ideal S21x256 .f32) : FVec Ideal S21 .f32 :=
  addf (subf (rowsOf A5)
      (mulf (broadcastInDim S21 ![] bcast_S_S21 (constant (F := Ideal) S_ .f32 0x40000000#32)) (crossOf Pt (momOf A3))))
    (mulf (rowsOf A4) (nrmOf Pa))

/-- Row `k` of the added per-class rows: the starting word plus the two rows' entries. -/
theorem rowsOf_apply (A : FVec Ideal S2x1x21 .f32) (k : Fin 21) :
    rowsOf A (ix1 k) = zeroW + ∑ p : Fin 2, A (ix3 p (0 : Fin 1) k) := by
  unfold rowsOf
  simp only [Host.reduceAdd, Ideal.hostReduceAdd_def]
  rw [Ideal.hostReduceAdd_single reducesTo_S2x21_S21_d0 (by decide)]
  refine congrArg (_ + ·) (Finset.sum_congr rfl fun p _ => ?_)
  refine shapeCast_apply _ _ _ (ix3 p (0 : Fin 1) k) ?_
  rw [Shape.rowMajor_val_three, Shape.rowMajor_val_two]
  show (p.val * 1 + 0) * 21 + k.val = p.val * 21 + k.val
  omega

/-- Entry (channel, class) of the added feature sums. -/
theorem momOf_apply (A3 : FVec Ideal S2x256x21 .f32) (ch : Fin 256) (k : Fin 21) :
    momOf A3 (ix2 ch k) = zeroW + ∑ p : Fin 2, A3 (ix3 p ch k) := by
  unfold momOf
  simp only [Host.reduceAdd, Ideal.hostReduceAdd_def]
  rw [Ideal.hostReduceAdd_single reducesTo_S2x256x21_S256x21_d0 (by decide)]
  refine congrArg (_ + ·) (Finset.sum_congr rfl fun p _ => ?_)
  exact congrArg A3 (funext fun a => Fin.ext (by match a with | ⟨0, _⟩ => rfl | ⟨1, _⟩ => rfl | ⟨2, _⟩ => rfl))

/-- Prototype `k`'s squared norm. -/
theorem nrmOf_apply (Pa : FVec Ideal S21x256 .f32) (k : Fin 21) :
    nrmOf Pa (ix1 k) = zeroW + ∑ ch : Fin 256, Pa (ix2 k ch) * Pa (ix2 k ch) := by
  unfold nrmOf
  simp only [Host.reduceAdd, Ideal.hostReduceAdd_def]
  rw [Ideal.hostReduceAdd_single reducesTo_S21x256_S21_d1 (by decide)]
  refine congrArg (_ + ·) (Finset.sum_congr rfl fun ch _ => ?_)
  have e : ∀ j, j = ix2 k ch → mulf Pa Pa j = Pa (ix2 k ch) * Pa (ix2 k ch) := fun j hj => by rw [hj]; rfl
  exact e _ (funext fun a => Fin.ext (by match a with | ⟨0, _⟩ => rfl | ⟨1, _⟩ => rfl))

/-- Prototype `k`'s inner product with the summed features of class `k`. -/
theorem crossOf_apply (Pt M : FVec Ideal S256x21 .f32) (k : Fin 21) :
    crossOf Pt M (ix1 k) = zeroW + ∑ ch : Fin 256, Pt (ix2 ch k) * M (ix2 ch k) := by
  unfold crossOf
  simp only [Host.reduceAdd, Ideal.hostReduceAdd_def]
  rw [Ideal.hostReduceAdd_single reducesTo_S256x21_S21_d0 (by decide)]
  refine congrArg (_ + ·) (Finset.sum_congr rfl fun ch _ => ?_)
  have e : ∀ j, j = ix2 ch k → mulf Pt M j = Pt (ix2 ch k) * M (ix2 ch k) := fun j hj => by rw [hj]; rfl
  exact e _ (funext fun a => Fin.ext (by match a with | ⟨0, _⟩ => rfl | ⟨1, _⟩ => rfl))

/-- The combination at class `k`. -/
theorem sseOf_apply (A3 : FVec Ideal S2x256x21 .f32) (A4 A5 : FVec Ideal S2x1x21 .f32) (Pt : FVec Ideal S256x21 .f32)
    (Pa : FVec Ideal S21x256 .f32) (k : Fin 21) :
    sseOf A3 A4 A5 Pt Pa (ix1 k)
      = (rowsOf A5 (ix1 k) - twoW * crossOf Pt (momOf A3) (ix1 k)) + rowsOf A4 (ix1 k) * nrmOf Pa (ix1 k) := rfl

/-- The combined array is the moment form's per-class sum and the added counts its count, once the rows are the
    accumulated moments and `Pt` is `Pa` transposed. -/
theorem sse_cnt_eq (X : SX.Idx → EReal) (L : SL.Idx → BitVec 32)
    (A3 : FVec Ideal S2x256x21 .f32) (A4 A5 : FVec Ideal S2x1x21 .f32) (Pt : FVec Ideal S256x21 .f32)
    (Pa : FVec Ideal S21x256 .f32)
    (h3 : ∀ (p : Fin 2) (ch : Fin 256) (k : Fin 21), A3 (ix3 p ch k) = accMom X L p.val 16 ch k)
    (h4 : ∀ (p : Fin 2) (k : Fin 21), A4 (ix3 p (0 : Fin 1) k) = accCnt L p.val 16 k)
    (h5 : ∀ (p : Fin 2) (k : Fin 21), A5 (ix3 p (0 : Fin 1) k) = accSsq X L p.val 16 k)
    (hPt : ∀ (ch : Fin 256) (k : Fin 21), Pt (ix2 ch k) = Pa (ix2 k ch)) :
    sseOf A3 A4 A5 Pt Pa = (fun i => sseK X L Pa (i 0)) ∧ rowsOf A4 = (fun i => cntK L (i 0)) := by
  have hc : ∀ k : Fin 21, rowsOf A4 (ix1 k) = cntK L k := fun k => by
    rw [rowsOf_apply]; unfold cntK
    exact congrArg (_ + ·) (Finset.sum_congr rfl fun p _ => h4 p k)
  have hs : ∀ k : Fin 21, rowsOf A5 (ix1 k) = ssqK X L k := fun k => by
    rw [rowsOf_apply]; unfold ssqK
    exact congrArg (_ + ·) (Finset.sum_congr rfl fun p _ => h5 p k)
  have hm : ∀ (ch : Fin 256) (k : Fin 21), momOf A3 (ix2 ch k) = momK X L ch k := fun ch k => by
    rw [momOf_apply]; unfold momK
    exact congrArg (_ + ·) (Finset.sum_congr rfl fun p _ => h3 p ch k)
  have hx : ∀ k : Fin 21, crossOf Pt (momOf A3) (ix1 k) = crossK X L Pa k := fun k => by
    rw [crossOf_apply]; unfold crossK
    exact congrArg (_ + ·) (Finset.sum_congr rfl fun ch _ => by rw [hPt, hm])
  have hn : ∀ k : Fin 21, nrmOf Pa (ix1 k) = nrmK Pa k := fun k => by
    rw [nrmOf_apply]; rfl
  refine ⟨funext fun i => ?_, funext fun i => ?_⟩
  · obtain ⟨k, rfl⟩ : ∃ k, i = ix1 k := ⟨i 0, eq_ix1 i⟩
    rw [sseOf_apply, hs, hx, hc, hn]
    rfl
  · obtain ⟨k, rfl⟩ : ∃ k, i = ix1 k := ⟨i 0, eq_ix1 i⟩
    exact hc k

set_option maxHeartbeats 4000000 in
/-- The operations after the region, run from any contents: the loss of the combined array and the added counts of
    what the three output arrays, the transposed prototypes and the prototypes hold. -/
theorem tail_eq (F0 : Valuation τ sig (Elt Ideal)) :
    StableHlo.after (List.flatten [hostOps1, hostOps1_1, hostOps1_2]) F0 (Proc.devRef .tc main_v31)
      = lossOf (sseOf (F0 (Proc.devRef .tc main_v3_0)) (F0 (Proc.devRef .tc main_v3_1)) (F0 (Proc.devRef .tc main_v3_2))
          (F0 (Proc.devRef .tc main_v2)) (F0 (Proc.devRef .tc main_arg2))) (rowsOf (F0 (Proc.devRef .tc main_v3_1))) := by
  simp only [hostOps1, hostOps1_1, hostOps1_2, List.flatten_cons, List.flatten_nil, List.append_nil, List.cons_append, List.nil_append]
  after_results_simp
  simp only [StableHlo.TRef.ofBuf, StableHlo.TRef.toBuf, cast_eq]
  rfl

/-- The same with the five arrays named. -/
theorem tail_eq_of (F0 : Valuation τ sig (Elt Ideal)) (A3 : FVec Ideal S2x256x21 .f32) (A4 A5 : FVec Ideal S2x1x21 .f32)
    (Pt : FVec Ideal S256x21 .f32) (Pa : FVec Ideal S21x256 .f32)
    (e3 : F0 (Proc.devRef .tc main_v3_0) = A3) (e4 : F0 (Proc.devRef .tc main_v3_1) = A4)
    (e5 : F0 (Proc.devRef .tc main_v3_2) = A5) (et : F0 (Proc.devRef .tc main_v2) = Pt)
    (ea : F0 (Proc.devRef .tc main_arg2) = Pa) :
    StableHlo.after (List.flatten [hostOps1, hostOps1_1, hostOps1_2]) F0 (Proc.devRef .tc main_v31)
      = lossOf (sseOf A3 A4 A5 Pt Pa) (rowsOf A4) := by
  subst e3 e4 e5 et ea
  exact tail_eq F0

/-- Before the region the prototypes are transposed into the staged array. -/
theorem V_v2 (c : Dev nD) : (V m c main_v2 : S256x21.Idx → Elt Ideal .f32)
    = transpose S256x21 [1, 0] (parg m c) transposes_S21x256_S256x21_1_0 := by
  show StableHlo.after hostOps0 (fun b => m (c, b)) (Proc.devRef .tc main_v2) = _
  after_results

/-- The transposed prototypes at (channel, class) are the prototypes at (class, channel). -/
theorem transpose_parg {α : Type} (x : S21x256.Idx → α) (ch : Fin 256) (k : Fin 21) :
    transpose S256x21 [1, 0] x transposes_S21x256_S256x21_1_0 (ix2 ch k) = x (ix2 k ch) :=
  transpose_apply _ x _ (ix2 ch k) (ix2 k ch) (fun b => by match b with | ⟨0, _⟩ => rfl | ⟨1, _⟩ => rfl)

/-- The program's result, given that the staged arrays enter the region at their contents there (`hA`) and what the
    three output arrays hold row by row afterwards. -/
theorem kernel_loss (dats : (p : Fin 1) → (c : Dev nD) → Dat τ (Elt Ideal) Unit ℕ (UR sig nD τ) ℕ (cfgs p) c) (c : Dev nD)
    (hA : ∀ w, (dats 0 c).A w = V m c (Pipeline.arrRef spec0 w))
    (h3 : ∀ (p : Fin 2) (ch : Fin 256) (k : Fin 21),
      ((dats 0 c).arrAt 3 cfg0.N : Vec Ideal S2x256x21 .f32) (ix3 p ch k) = accMom (xarg m c) (larg m c) p.val 16 ch k)
    (h4 : ∀ (p : Fin 2) (k : Fin 21),
      ((dats 0 c).arrAt 4 cfg0.N : Vec Ideal S2x1x21 .f32) (ix3 p (0 : Fin 1) k) = accCnt (larg m c) p.val 16 k)
    (h5 : ∀ (p : Fin 2) (k : Fin 21),
      ((dats 0 c).arrAt 5 cfg0.N : Vec Ideal S2x1x21 .f32) (ix3 p (0 : Fin 1) k) = accSsq (xarg m c) (larg m c) p.val 16 k) :
    Pipeline.afterTail₀ cfgs dats 0 (V0 m) [hostOps1, hostOps1_1, hostOps1_2] c main_v31
      = lossOf (fun i => sseK (xarg m c) (larg m c) (parg m c) (i 0)) (fun i => cntK (larg m c) (i 0)) := by
  unfold Pipeline.afterTail₀
  have e3 : Pipeline.withArrays spec0 c (V0 m c) (fun w => (dats 0 c).arrAt w cfg0.N) (Proc.devRef .tc main_v3_0)
      = (dats 0 c).arrAt 3 cfg0.N :=
    Pipeline.withArrays_arr spec0 launch0.win.arr_inj c (V0 m c) (fun w => (dats 0 c).arrAt w cfg0.N) 3
  have e4 : Pipeline.withArrays spec0 c (V0 m c) (fun w => (dats 0 c).arrAt w cfg0.N) (Proc.devRef .tc main_v3_1)
      = (dats 0 c).arrAt 4 cfg0.N :=
    Pipeline.withArrays_arr spec0 launch0.win.arr_inj c (V0 m c) (fun w => (dats 0 c).arrAt w cfg0.N) 4
  have e5 : Pipeline.withArrays spec0 c (V0 m c) (fun w => (dats 0 c).arrAt w cfg0.N) (Proc.devRef .tc main_v3_2)
      = (dats 0 c).arrAt 5 cfg0.N :=
    Pipeline.withArrays_arr spec0 launch0.win.arr_inj c (V0 m c) (fun w => (dats 0 c).arrAt w cfg0.N) 5
  have e2 : Pipeline.withArrays spec0 c (V0 m c) (fun w => (dats 0 c).arrAt w cfg0.N) (Proc.devRef .tc main_v2)
      = (dats 0 c).arrAt 2 cfg0.N :=
    Pipeline.withArrays_arr spec0 launch0.win.arr_inj c (V0 m c) (fun w => (dats 0 c).arrAt w cfg0.N) 2
  have e2' : (dats 0 c).arrAt 2 cfg0.N = (dats 0 c).A 2 := (dats 0 c).arrAt_in 2 rfl cfg0.N
  have et : Pipeline.withArrays spec0 c (V0 m c) (fun w => (dats 0 c).arrAt w cfg0.N) (Proc.devRef .tc main_v2)
      = transpose S256x21 [1, 0] (parg m c) transposes_S21x256_S256x21_1_0 :=
    e2.trans (e2'.trans ((hA 2).trans (V_v2 m c)))
  have ea : Pipeline.withArrays spec0 c (V0 m c) (fun w => (dats 0 c).arrAt w cfg0.N) (Proc.devRef .tc main_arg2)
      = parg m c :=
    (Pipeline.withArrays_of_ne spec0 c (V0 m c) (fun w => (dats 0 c).arrAt w cfg0.N) main_arg2
      (by exact (by decide : ∀ w, Pipeline.arrRef spec0 w ≠ main_arg2))).trans (V_main_arg2 m c)
  have key := tail_eq_of (Pipeline.withArrays spec0 c (V0 m c) (fun w => (dats 0 c).arrAt w cfg0.N))
    ((dats 0 c).arrAt 3 cfg0.N) ((dats 0 c).arrAt 4 cfg0.N) ((dats 0 c).arrAt 5 cfg0.N)
    (transpose S256x21 [1, 0] (parg m c) transposes_S21x256_S256x21_1_0) (parg m c) e3 e4 e5 et ea
  obtain ⟨hs, hc⟩ := sse_cnt_eq (xarg m c) (larg m c) ((dats 0 c).arrAt 3 cfg0.N) ((dats 0 c).arrAt 4 cfg0.N)
    ((dats 0 c).arrAt 5 cfg0.N) (transpose S256x21 [1, 0] (parg m c) transposes_S21x256_S256x21_1_0) (parg m c)
    h3 h4 h5 (fun ch k => transpose_parg (parg m c) ch k)
  rw [hs, hc] at key
  exact key

end Cert.KernelIdeal.Loss

end
-- ==== Proof.KernelResult.lean ====
/-
  The moment program's run, read: it ends with its result at the loss of the moment-form sums and counts, and its
  three arguments unchanged.
-/
import proofs.«408412_j53137335386660_3_alg».proof.Proof.Gen.KernelIdeal.Frame
import proofs.«408412_j53137335386660_3_alg».proof.Proof.MomentDefs
import proofs.«408412_j53137335386660_3_alg».proof.Proof.TileBlocks
import proofs.«408412_j53137335386660_3_alg».proof.Proof.CoreSums
import proofs.«408412_j53137335386660_3_alg».proof.Proof.KernelLoss

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Tile Cert.Moments

variable (m : (ℓ : Loc nD τ sig) → Buf (Elt Ideal) ℓ) (ρ : Dev nD → PrngReg)

/-- The loss in the moment form, over core `c`'s arguments. -/
abbrev loss (c : Dev nD) : FVec Ideal S0 .f32 :=
  lossOf (fun i => sseK (xarg m c) (larg m c) (parg m c) (i 0)) (fun i => cntK (larg m c) (i 0))

theorem run : θ_run defs (onTc (τ := τ) (main (F := Ideal))) ⟨m, fun _ => 0, ρ⟩ (fun r => ∀ c : Dev nD,
      r.2.mem ((c.tc : Thread nD τ).loc main_v31) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v31 (Pipeline.mem_restRefs_of main_v31 (by decide) (by decide))).trans
        (Cert.KernelIdeal.Loss.kernel_loss m (dats m) c (A_eq m c)
          (Cert.KernelIdeal.Core.core_mom m c) (Cert.KernelIdeal.Core.core_cnt m c) (Cert.KernelIdeal.Core.core_ssq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.ReferenceDist.lean ====
/-
  One pixel's squared distance to its prototype, as the pixel-by-pixel program computes it.

  The program lays the features out pixel-major (a transpose and a row-major re-layout: entry (n, ch) is channel `ch`
  of pixel `n`), clamps each label word into 0..20 as a signed integer, reads that row of the prototypes, and sums
  the squared differences over the 256 channels, starting from zero.
-/
import proofs.«408412_j53137335386660_3_alg».proof.Proof.ReferenceRead
import proofs.«408412_j53137335386660_3_alg».proof.Proof.MomentDefs
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.Dist

open Idealize.ShloMosaic Idealize.ShloMosaic.ValueIdx
open Cert.ReferenceIdeal Cert.ReferenceIdeal.Gen Cert.ReferenceIdeal.Read Cert.Moments

/-- The prototype row read for a label word: the word, as a signed integer, clamped into 0..20. -/
def row (l : BitVec 32) : Fin 21 := ⟨(min (max l.toInt 0) 20).toNat, by omega⟩

/-- A word that is a class number is its own row. -/
theorem row_ofNat (k : Fin 21) : row (BitVec.ofNat 32 k.val) = k := by
  have hk : k.val < 21 := k.isLt
  have h : (BitVec.ofNat 32 k.val).toInt = (k.val : Int) :=
    StableHlo.Predicate.toInt_ofNat_small k.val (by omega)
  unfold row
  refine Fin.ext ?_
  show (min (max (BitVec.ofNat 32 k.val).toInt 0) 20).toNat = k.val
  rw [h]; omega

/-! ## The label word's road to a row number: clip into 0..20, wrap a negative index (there is none), clamp (nothing to do) -/

theorem toInt_zero32 : (0#32 : BitVec 32).toInt = 0 := by decide
theorem toInt_twenty32 : (20#32 : BitVec 32).toInt = 20 := by decide

/-- The clip of a word into 0..20, read as a signed integer, is the integer clipped. -/
theorem clip_toInt (l : BitVec 32) :
    (IntOp.minsi 20#32 (IntOp.maxsi 0#32 l)).toInt = min (max l.toInt 0) 20 := by
  unfold IntOp.minsi IntOp.maxsi
  simp only [BitVec.slt, toInt_zero32, toInt_twenty32]
  by_cases h0 : l.toInt < 0
  · simp only [h0, decide_true, if_true, toInt_zero32]
    rw [if_neg (by decide)]
    simp only [toInt_zero32]; omega
  · simp only [h0, decide_false]
    by_cases h20 : 20 < l.toInt
    · simp [h20, toInt_twenty32]; omega
    · simp [h20]; omega

/-- A word that is not negative as a signed integer is left alone by the wrap of negative indices. -/
theorem wrap_of_nonneg (c : BitVec 32) (hc : 0 ≤ c.toInt) :
    Scalar.select (IntOp.cmpi .slt c 0#32) (IntOp.addi c 21#32) c = c := by
  unfold Scalar.select IntOp.cmpi
  rw [if_neg]
  simp only [BitVec.slt, toInt_zero32]
  rw [decide_eq_false (by omega)]
  decide

/-- The flattened labels at pixel `n`. -/
theorem lab_apply (x1 : (⟨S16x128x128, .i32⟩ : BufTy).Contents (Elt Ideal)) (n : Fin 262144) :
    val_main_v2 (F := Ideal) x1 (ix1 n) = x1 (pixL n) := by
  rw [val_main_v2_apply]
  congr 1
  funext a
  match a with
  | ⟨0, _⟩ => rfl
  | ⟨1, _⟩ => rfl
  | ⟨2, _⟩ => rfl

/-- The clipped label at pixel `n`. -/
theorem clipped_apply (x1 : (⟨S16x128x128, .i32⟩ : BufTy).Contents (Elt Ideal)) (n : Fin 262144) :
    val_main_v6 (F := Ideal) x1 (ix1 n) = IntOp.minsi 20#32 (IntOp.maxsi 0#32 (x1 (pixL n))) := by
  rw [val_main_v6_apply, val_main_call1_v4_apply, val_main_call1_v3_apply, val_main_c_2_apply,
    val_main_call1_v2_apply, val_main_call1_v1_apply, val_main_call1_v0_apply, val_main_c_1_apply, lab_apply]

/-- The index the gather is given at pixel `n`: the clipped label (it is never negative, so the wrap leaves it). -/
theorem wrapped_apply (x1 : (⟨S16x128x128, .i32⟩ : BufTy).Contents (Elt Ideal)) (n : Fin 262144) :
    val_main_v11 (F := Ideal) x1 (ix1 n) = IntOp.minsi 20#32 (IntOp.maxsi 0#32 (x1 (pixL n))) := by
  rw [val_main_v11_apply, val_main_v8_apply, val_main_v10_apply, val_main_v7_apply, val_main_c_3_apply,
    val_main_v9_apply, val_main_c_4_apply, clipped_apply]
  exact wrap_of_nonneg _ (by rw [clip_toInt]; omega)

/-- The start-index column at pixel `n`. -/
theorem start_apply (x1 : (⟨S16x128x128, .i32⟩ : BufTy).Contents (Elt Ideal)) (n : Fin 262144) :
    val_main_v12 (F := Ideal) x1 (ix2 n (0 : Fin 1)) = IntOp.minsi 20#32 (IntOp.maxsi 0#32 (x1 (pixL n))) := by
  rw [val_main_v12_apply, ← wrapped_apply x1 n]
  congr 1
  funext a
  match a with
  | ⟨0, _⟩ => rfl

/-! ## The gather of a row of the 21 x 256 table, read from its definition -/

section Gather
variable {α : Type}

/-- Entry (n, ch) of the result is the table at (the start index of n read signed and clamped into 0..20, ch). -/
theorem gather_row_apply {w : Nat} (x : S21x256.Idx → α) (idx : IVec S262144x1 w) (n : Fin 262144) (ch : Fin 256) :
    Host.gather gather_S21x256_S262144x1_S262144x256_1_0_n_n_0_1_1256 x idx (ix2 n ch)
      = x (ix2 (⟨min (idx (ix2 n (0 : Fin 1))).toInt.toNat 20, by omega⟩ : Fin 21) ch) := by
  unfold Host.gather
  congr 1
  funext a
  refine Fin.ext ?_
  match a with
  | ⟨0, _⟩ =>
    show gather_S21x256_S262144x1_S262144x256_1_0_n_n_0_1_1256.start (ix2 n ch) idx 0
      + gather_S21x256_S262144x1_S262144x256_1_0_n_n_0_1_1256.batchCoord (ix2 n ch) 0
      + gather_S21x256_S262144x1_S262144x256_1_0_n_n_0_1_1256.offCoord (ix2 n ch) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S21x256_S262144x1_S262144x256_1_0_n_n_0_1_1256.startIndexMap from List.mem_singleton.mpr rfl)]
    have hsi : gather_S21x256_S262144x1_S262144x256_1_0_n_n_0_1_1256.siIdx (ix2 n ch)
        ⟨List.idxOf (0 : Fin 2) gather_S21x256_S262144x1_S262144x256_1_0_n_n_0_1_1256.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gather_S21x256_S262144x1_S262144x256_1_0_n_n_0_1_1256.start (ix2 n ch) idx 1
      + gather_S21x256_S262144x1_S262144x256_1_0_n_n_0_1_1256.batchCoord (ix2 n ch) 1
      + gather_S21x256_S262144x1_S262144x256_1_0_n_n_0_1_1256.offCoord (ix2 n ch) 1 = ch.val
    rw [GatherDims.batchCoord_eq_zero _ _ _ List.not_mem_nil]
    unfold GatherDims.start
    rw [dif_neg (show (1 : Fin 2) ∉ gather_S21x256_S262144x1_S262144x256_1_0_n_n_0_1_1256.startIndexMap from by decide)]
    simp only [Nat.add_zero, Nat.zero_add]
    unfold GatherDims.offCoord
    rw [dif_pos (show (1 : Fin 2) ∈ gather_S21x256_S262144x1_S262144x256_1_0_n_n_0_1_1256.sKept from by decide)]
    rfl

end Gather

/-- The prototype entry the program reads for channel `ch` of pixel `n`: the row of the clamped label word. -/
theorem proto_apply (x1 : (⟨S16x128x128, .i32⟩ : BufTy).Contents (Elt Ideal)) (x2 : (⟨S21x256, .f32⟩ : BufTy).Contents (Elt Ideal))
    (n : Fin 262144) (ch : Fin 256) :
    val_main_v13 (F := Ideal) x1 x2 (ix2 n ch) = x2 (ix2 (row (x1 (pixL n))) ch) := by
  have hs := start_apply x1 n
  have hr : (⟨min (val_main_v12 (F := Ideal) x1 (ix2 n (0 : Fin 1))).toInt.toNat 20, by omega⟩ : Fin 21) = row (x1 (pixL n)) := by
    refine Fin.ext ?_
    show min (val_main_v12 (F := Ideal) x1 (ix2 n (0 : Fin 1))).toInt.toNat 20 = (min (max (x1 (pixL n)).toInt 0) 20).toNat
    rw [hs, clip_toInt]; omega
  unfold val_main_v13
  exact (gather_row_apply x2 (val_main_v12 (F := Ideal) x1) n ch).trans (congrArg (fun r => x2 (ix2 r ch)) hr)

/-- The feature entry the program reads for channel `ch` of pixel `n`. -/
theorem feat_apply (x0 : (⟨S16x256x128x128, .f32⟩ : BufTy).Contents (Elt Ideal)) (n : Fin 262144) (ch : Fin 256) :
    val_main_v1 (F := Ideal) x0 (ix2 n ch) = x0 (pixX n ch) := by
  rw [val_main_v1_apply, val_main_v0_apply]
  congr 1
  funext a
  have hn : n.val < 262144 := n.isLt
  have hc : ch.val < 256 := ch.isLt
  match a with
  | ⟨0, _⟩ => exact Fin.ext (by show (n.val * 256 + ch.val) / 4194304 = n.val / 16384; omega)
  | ⟨1, _⟩ => exact Fin.ext (by show (n.val * 256 + ch.val) % 256 = ch.val; omega)
  | ⟨2, _⟩ => exact Fin.ext (by show (n.val * 256 + ch.val) / 32768 % 128 = n.val / 128 % 128; omega)
  | ⟨3, _⟩ => exact Fin.ext (by show (n.val * 256 + ch.val) / 256 % 128 = n.val % 128; omega)

/-- Pixel `n`'s squared distance to the prototype row of its (clamped) label word. -/
theorem sq_apply (x0 : (⟨S16x256x128x128, .f32⟩ : BufTy).Contents (Elt Ideal)) (x1 : (⟨S16x128x128, .i32⟩ : BufTy).Contents (Elt Ideal)) (x2 : (⟨S21x256, .f32⟩ : BufTy).Contents (Elt Ideal)) (n : Fin 262144) :
    val_main_v16 (F := Ideal) x0 x1 x2 (ix1 n) = sqR x0 x1 x2 row n := by
  rw [val_main_v16_apply]
  unfold sqR
  refine congrArg₂ (· + ·) rfl (Finset.sum_congr rfl fun ch _ => ?_)
  have hidx : idx_main_v16 (ix1 n) ch = ix2 n ch := by
    funext a
    match a with
    | ⟨0, _⟩ => rfl
    | ⟨1, _⟩ => rfl
  rw [hidx, val_main_v15_apply, val_main_v14_apply, feat_apply, proto_apply]
  rfl

end Cert.ReferenceIdeal.Dist

end
-- ==== Proof.ReferenceSums.lean ====
/-
  Adding per class, as the pixel-by-pixel program does it.

  Each pixel is sent to a segment: its label word, except that the ignore word 255 goes to the extra segment 21.  An
  accumulating scatter into 22 zeros adds each pixel's value to its segment, reading the segment number as a signed
  integer and dropping a pixel whose number is outside 0..21; the first 21 entries are kept.  So entry `k` of the
  result is zero plus the sum of the values of exactly the pixels whose label word is `k`.
-/
import proofs.«408412_j53137335386660_3_alg».proof.Proof.ReferenceRead
import proofs.«408412_j53137335386660_3_alg».proof.Proof.MomentDefs
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.Sums

open Idealize.ShloMosaic Idealize.ShloMosaic.ValueIdx Idealize.ShloMosaic.StableHlo.Predicate
open Cert.ReferenceIdeal Cert.ReferenceIdeal.Gen Cert.ReferenceIdeal.Read Cert.Moments

/-! ## Where one update lands -/

/-- The scatter's dimension numbers: one index word per update, naming the entry of the 22 it is added to. -/
abbrev dS : ScatterDims S22 S262144x1 S262144 := scatter_S22_S262144x1_S262144_n_0_0_1

/-- The start of update `j`'s window is its index word, read as a signed integer. -/
theorem start_eq (idx : IVec S262144x1 32) (j : S262144.Idx) (a : Fin S22.rank) :
    dS.start j idx a = (idx (ix2 (j 0) 0)).toInt := by
  obtain rfl : a = 0 := Subsingleton.elim _ _
  unfold ScatterDims.start
  rw [dif_pos (show (0 : Fin 1) ∈ dS.scatterDimsToOperandDims from List.mem_singleton.mpr rfl)]
  have hsi : dS.siIdx j ⟨List.idxOf (0 : Fin 1) dS.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The window is a single element: its coordinate is zero. -/
theorem window_eq (j : S262144.Idx) (a : Fin S22.rank) : dS.window j a = 0 := by
  obtain rfl : a = 0 := Subsingleton.elim _ _
  unfold ScatterDims.window
  rw [dif_neg (by decide)]

/-- Update `j` lands on entry `i` exactly when its index word, read signed, is `i`. -/
theorem resultIdx_iff (idx : IVec S262144x1 32) (j : S262144.Idx) (i : S22.Idx) :
    dS.resultIdx? j idx = some i ↔ (idx (ix2 (j 0) 0)).toInt = ((i 0).val : Int) := by
  unfold ScatterDims.resultIdx?
  have hs : ∀ a : Fin S22.rank, dS.start j idx a + ((dS.window j a : ℕ) : ℤ) = (idx (ix2 (j 0) 0)).toInt := by
    intro a
    rw [start_eq, window_eq]
    simp
  have h22 : (i 0).val < 22 := (i 0).isLt
  split
  · rename_i h
    have h0 := h 0
    rw [hs] at h0
    have h0' : 0 ≤ (idx (ix2 (j 0) 0)).toInt ∧ (idx (ix2 (j 0) 0)).toInt < 22 := h0
    constructor
    · intro he
      have e1 : (dS.start j idx 0 + ((dS.window j 0 : ℕ) : ℤ)).toNat = (i 0).val :=
        congrArg Fin.val (congrFun (Option.some.inj he) 0)
      rw [hs] at e1
      omega
    · intro ht
      refine congrArg some (funext fun a => ?_)
      obtain rfl : a = 0 := Subsingleton.elim _ _
      refine Fin.ext ?_
      show (dS.start j idx 0 + ((dS.window j 0 : ℕ) : ℤ)).toNat = (i 0).val
      rw [hs]
      omega
  · rename_i h
    constructor
    · intro he; exact absurd he (by simp)
    · intro ht
      exfalso; apply h; intro a
      rw [hs]
      obtain rfl : a = 0 := Subsingleton.elim _ _
      show 0 ≤ (idx (ix2 (j 0) 0)).toInt ∧ (idx (ix2 (j 0) 0)).toInt < 22
      omega

/-! ## The scatter as a sum over pixels -/

/-- Entry `i` of the accumulating scatter into zeros: zero plus the updates of the pixels whose segment word,
    read signed, is `i`. -/
theorem scatter_apply (z : FVec Ideal S22 .f32) (hz : ∀ i, z i = zeroW) (idx : IVec S262144x1 32)
    (seg : Fin 262144 → BitVec 32) (hidx : ∀ n : Fin 262144, idx (ix2 n 0) = seg n)
    (upd : FVec Ideal S262144 .f32) (i : S22.Idx) :
    Host.scatterAdd dS z idx upd i
      = zeroW + ∑ n : Fin 262144, if (seg n).toInt = ((i 0).val : Int) then upd (ix1 n) else 0 := by
  unfold Host.scatterAdd
  rw [Ideal.hostScatterAdd_def]
  unfold Ideal.hostScatterAdd
  rw [hz, Finset.sum_filter]
  refine congrArg (zeroW + ·) ?_
  rw [← Equiv.sum_comp (idxEquiv1 (n := 262144)).symm]
  refine Finset.sum_congr rfl fun n _ => ?_
  show (if dS.resultIdx? (ix1 n) idx = some i then upd (ix1 n) else 0) = _
  refine if_congr ?_ rfl rfl
  rw [resultIdx_iff, ← hidx n]

/-! ## The segment of a pixel -/

/-- The segment word of a label word: the word itself, but 21 for the ignore word 255. -/
def segW (l : BitVec 32) : BitVec 32 := Scalar.select (IntOp.cmpi .ne l 255#32) l 21#32

/-- A pixel's segment is class `k` exactly when its label word is `k`. -/
theorem seg_iff (l : BitVec 32) (k : Fin 21) :
    (segW l).toInt = ((k.val : ℕ) : Int) ↔ l = BitVec.ofNat 32 k.val := by
  have hk : k.val < 21 := k.isLt
  unfold segW
  by_cases hl : l = 255#32
  · subst hl
    have hs : Scalar.select (IntOp.cmpi .ne (255#32) (255#32)) (255#32 : BitVec 32) (21#32) = 21#32 := by decide
    have h21 : (21#32 : BitVec 32).toInt = 21 := by decide
    rw [hs, h21]
    constructor
    · intro h; omega
    · intro h
      have h2 := congrArg BitVec.toNat h
      simp only [BitVec.toNat_ofNat] at h2
      omega
  · have hc : IntOp.cmpi .ne l 255#32 = 1#1 := by
      unfold IntOp.cmpi
      rw [ofBool_eq_one_iff]
      simpa using hl
    rw [hc, select_one]
    constructor
    · intro h
      apply BitVec.eq_of_toInt_eq
      rw [h, toInt_ofNat_small _ (by omega)]
    · intro h
      rw [h, toInt_ofNat_small _ (by omega)]

/-- The flattened label array at pixel `n` is the label array at image, row, column of `n`. -/
theorem pix_eq (n : Fin 262144) : idx_main_v2 (ix1 n) = pixL n := by
  funext a
  match a with
  | ⟨0, _⟩ => rfl
  | ⟨1, _⟩ => rfl
  | ⟨2, _⟩ => rfl

/-- The segment array at pixel `n` is the segment word of the pixel's label word. -/
theorem seg_read (x1 : (⟨S16x128x128, .i32⟩ : BufTy).Contents (Elt Ideal)) (n : Fin 262144) :
    val_main_v5 (F := Ideal) x1 (ix1 n) = segW (x1 (pixL n)) := by
  rw [val_main_v5_apply, val_main_v4_apply, val_main_v2_apply, val_main_v3_apply, val_main_c_apply,
    val_main_call0_v1_apply, val_main_call0_v0_apply, val_main_c_0_apply, pix_eq]
  rfl

theorem idx18_read (x1 : (⟨S16x128x128, .i32⟩ : BufTy).Contents (Elt Ideal)) (n : Fin 262144) :
    val_main_v18 (F := Ideal) x1 (ix2 n 0) = segW (x1 (pixL n)) := by
  rw [val_main_v18_apply, ← seg_read]
  exact congrArg _ (funext fun a => match a with | ⟨0, _⟩ => rfl)

theorem idx23_read (x1 : (⟨S16x128x128, .i32⟩ : BufTy).Contents (Elt Ideal)) (n : Fin 262144) :
    val_main_v23 (F := Ideal) x1 (ix2 n 0) = segW (x1 (pixL n)) := by
  rw [val_main_v23_apply, ← seg_read]
  exact congrArg _ (funext fun a => match a with | ⟨0, _⟩ => rfl)

/-! ## The two per-class sums -/

/-- Class `k`'s summed squared distance: zero plus the squared distances of the pixels whose label word is `k`. -/
theorem sse_apply (x0 : (⟨S16x256x128x128, .f32⟩ : BufTy).Contents (Elt Ideal)) (x1 : (⟨S16x128x128, .i32⟩ : BufTy).Contents (Elt Ideal)) (x2 : (⟨S21x256, .f32⟩ : BufTy).Contents (Elt Ideal)) (k : Fin 21) :
    val_main_v20 (F := Ideal) x0 x1 x2 (ix1 k)
      = zeroW + ∑ n : Fin 262144,
          if x1 (pixL n) = BitVec.ofNat 32 k.val then val_main_v16 (F := Ideal) x0 x1 x2 (ix1 n) else 0 := by
  rw [val_main_v20_apply]
  unfold val_main_v19
  rw [scatter_apply (val_main_v17 (F := Ideal)) (fun i => by rw [val_main_v17_apply, val_main_cst_5_apply]; rfl)
    (val_main_v18 (F := Ideal) x1) (fun n => segW (x1 (pixL n))) (idx18_read x1)]
  refine congrArg (zeroW + ·) (Finset.sum_congr rfl fun n _ => if_congr ?_ rfl rfl)
  exact seg_iff _ k

/-- Class `k`'s count: zero plus one for each pixel whose label word is `k`. -/
theorem cnt_apply (x1 : (⟨S16x128x128, .i32⟩ : BufTy).Contents (Elt Ideal)) (k : Fin 21) :
    val_main_v25 (F := Ideal) x1 (ix1 k) = cntR x1 k := by
  rw [val_main_v25_apply]
  unfold val_main_v24
  rw [scatter_apply (val_main_v22 (F := Ideal)) (fun i => by rw [val_main_v22_apply, val_main_cst_7_apply]; rfl)
    (val_main_v23 (F := Ideal) x1) (fun n => segW (x1 (pixL n))) (idx23_read x1)]
  unfold cntR
  refine congrArg (zeroW + ·) (Finset.sum_congr rfl fun n _ => ?_)
  rw [val_main_v21_apply, val_main_cst_6_apply]
  exact if_congr (seg_iff _ k) rfl rfl

end Cert.ReferenceIdeal.Sums

end
-- ==== Proof.ReferenceLoss.lean ====
/-
  The pixel-by-pixel program's result as the loss of the per-class distance sums and counts.

  After the two per-class sums the program applies the same chain as the other one: which classes occur, the mean
  squared distance of each, their mean over the classes that occur.
-/
import proofs.«408412_j53137335386660_3_alg».proof.Proof.ReferenceRead
import proofs.«408412_j53137335386660_3_alg».proof.Proof.MomentDefs
import proofs.«408412_j53137335386660_3_alg».proof.Proof.ReferenceDist
import proofs.«408412_j53137335386660_3_alg».proof.Proof.ReferenceSums
import Idealize.ShloMosaic.Lib.ValueIdx

noncomputable section

namespace Cert.ReferenceIdeal.Loss

open Idealize.ShloMosaic Idealize.ShloMosaic.ValueIdx
open Cert.ReferenceIdeal Cert.ReferenceIdeal.Gen Cert.ReferenceIdeal.Read Cert.Moments
open Cert.ReferenceIdeal.Dist Cert.ReferenceIdeal.Sums

/-- The last operations are the loss of the two per-class arrays. -/
theorem tail_eq (x0 : (⟨S16x256x128x128, .f32⟩ : BufTy).Contents (Elt Ideal)) (x1 : (⟨S16x128x128, .i32⟩ : BufTy).Contents (Elt Ideal)) (x2 : (⟨S21x256, .f32⟩ : BufTy).Contents (Elt Ideal)) :
    val_main_v39 (F := Ideal) x0 x1 x2 = lossOf (val_main_v20 (F := Ideal) x0 x1 x2) (val_main_v25 (F := Ideal) x1) := by
  unfold lossOf
  rfl

/-- The program's result in the distance form. -/
theorem ref_loss (x0 : (⟨S16x256x128x128, .f32⟩ : BufTy).Contents (Elt Ideal)) (x1 : (⟨S16x128x128, .i32⟩ : BufTy).Contents (Elt Ideal)) (x2 : (⟨S21x256, .f32⟩ : BufTy).Contents (Elt Ideal)) :
    val_main_v39 (F := Ideal) x0 x1 x2
      = lossOf (fun i => sseR x0 x1 x2 row (i 0)) (fun i => cntR x1 (i 0)) := by
  rw [tail_eq]
  have hs : val_main_v20 (F := Ideal) x0 x1 x2 = fun i => sseR x0 x1 x2 row (i 0) := by
    funext i
    obtain ⟨k, rfl⟩ : ∃ k : Fin 21, i = ix1 k := ⟨i 0, eq_ix1 i⟩
    rw [sse_apply]
    show _ = sseR x0 x1 x2 row k
    unfold sseR
    refine congrArg (zeroW + ·) (Finset.sum_congr rfl fun n _ => ?_)
    rw [sq_apply]
  have hc : val_main_v25 (F := Ideal) x1 = fun i => cntR x1 (i 0) := by
    funext i
    obtain ⟨k, rfl⟩ : ∃ k : Fin 21, i = ix1 k := ⟨i 0, eq_ix1 i⟩
    exact cnt_apply x1 k
  rw [hs, hc]

end Cert.ReferenceIdeal.Loss

end
-- ==== Proof.lean ====
/-
  Two programs compute a clustering loss over a batch of 262144 labelled pixels with 256 channels and 21 class
  prototypes: over the classes that occur, the mean of each class's mean squared distance between its pixels'
  features and its prototype.

  One program streams the features once, tile by tile, and accumulates per class three moments — the summed squared
  norms of the class's pixels, the summed features, the count — on two cores, adds the cores' results and combines
      sum |x|^2  -  2 <p, sum x>  +  count * |p|^2.
  The other forms each pixel's squared distance to its (clamped) label's prototype and adds them per class.  Over the
  extended reals the two per-class sums agree because every feature and prototype entry is a real number (the
  precondition), so the square expands; a pixel whose label word is not a class number lands in neither.  The counts
  agree outright.  From the per-class sums and counts on, both apply one and the same chain of operations.

  Both programs terminate without a fault and leave their arguments unchanged; the word-level program's idealization
  rewrote nothing.
-/
import proofs.«408412_j53137335386660_3_alg».proof.Defs
import proofs.«408412_j53137335386660_3_alg».proof.Proof.Gen.Kernel
import proofs.«408412_j53137335386660_3_alg».proof.Proof.Gen.Kernel.Skeleton
import proofs.«408412_j53137335386660_3_alg».proof.Proof.Gen.Kernel.Launch
import proofs.«408412_j53137335386660_3_alg».proof.Proof.Gen.Kernel.Points
import proofs.«408412_j53137335386660_3_alg».proof.Proof.Gen.Kernel.Frame
import proofs.«408412_j53137335386660_3_alg».proof.Proof.Gen.KernelIdeal
import proofs.«408412_j53137335386660_3_alg».proof.Proof.Gen.KernelIdeal.Skeleton
import proofs.«408412_j53137335386660_3_alg».proof.Proof.Gen.KernelIdeal.Launch
import proofs.«408412_j53137335386660_3_alg».proof.Proof.Gen.KernelIdeal.Points
import proofs.«408412_j53137335386660_3_alg».proof.Proof.Gen.KernelIdeal.Frame
import proofs.«408412_j53137335386660_3_alg».proof.Proof.Gen.ReferenceIdeal
import proofs.«408412_j53137335386660_3_alg».proof.Proof.Gen.Pre_finite_inputs
import proofs.«408412_j53137335386660_3_alg».proof.Proof.Moments
import proofs.«408412_j53137335386660_3_alg».proof.Proof.FiniteInputs
import proofs.«408412_j53137335386660_3_alg».proof.Proof.KernelResult
import proofs.«408412_j53137335386660_3_alg».proof.Proof.ReferenceRun
import proofs.«408412_j53137335386660_3_alg».proof.Proof.ReferenceLoss
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The pixel-by-pixel program has no kernel: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the same loss: the moment form of each class's
    summed squared distance is its distance form (every entry being real), and the counts are equal. -/
theorem algebraic : Cert.algebraic_KernelIdeal_ReferenceIdeal := by
  intro m ρ m' ρ' hpre hagree
  refine ⟨fun c => Cert.KernelIdeal.Result.loss m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.Loss.ref_loss,
    (hagree c).1, (hagree c).2.1, (hagree c).2.2]
  obtain ⟨hX, hP⟩ := Cert.Finite.real_of_pre m hpre c
  show Cert.Moments.lossOf _ _ = Cert.Moments.lossOf _ _
  refine congrArg₂ Cert.Moments.lossOf (funext fun i => ?_) (funext fun i => ?_)
  · exact (Cert.Moments.sse_eq _ _ _ _ hX hP Cert.ReferenceIdeal.Dist.row_ofNat (i 0)).symm
  · exact (Cert.Moments.cnt_eq _ (i 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
